-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S2x2x256 : Shape := ⟨3, ![2, 2, 256]⟩
abbrev S2x256 : Shape := ⟨2, ![2, 256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S2x2x256 : S_.BroadcastsInDim S2x2x256 (![] : Fin 0 → Fin S2x2x256.rank)
  reducesTo_S2x2x256_S_d0_1_2 : S2x2x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S2x2x256 .f32) (main_arg3 : FVec F S2x256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S2x2x256 .f32 := Host.absf main_arg2
  let main_cst_2 : FVec F S_ .f32 := constant S_ .f32 0x7F800000#32
  let main_v10 : FVec F S2x2x256 .f32 := broadcastInDim S2x2x256 ![] bcast_S_S2x2x256 main_cst_2
  let main_v11 : IVec S2x2x256 1 := cmpf .olt main_v9 main_v10
  let main_c_3 : IVec S_ 1 := constantI S_ 1 1#1
  let main_v12 : IVec S_ 1 := (fun x v => Host.reduce IntOp.andi x v reducesTo_S2x2x256_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_v13 main_v16
-- ==== Kernel.lean ====
abbrev S32x256x64x64 : Shape := ⟨4, ![32, 256, 64, 64]⟩
abbrev S2x2x256 : Shape := ⟨3, ![2, 2, 256]⟩
abbrev S2x256 : Shape := ⟨2, ![2, 256]⟩
abbrev S32x256x4096 : Shape := ⟨3, ![32, 256, 4096]⟩
abbrev S5x256 : Shape := ⟨2, ![5, 256]⟩
abbrev S1x256x4096 : Shape := ⟨3, ![1, 256, 4096]⟩
abbrev S256x4096 : Shape := ⟨2, ![256, 4096]⟩
abbrev S1x256 : Shape := ⟨2, ![1, 256]⟩
abbrev S256 : Shape := ⟨1, ![256]⟩
abbrev S_ : Shape := ⟨0, ![]⟩
abbrev S1x1x256 : Shape := ⟨3, ![1, 1, 256]⟩
abbrev S256x1 : Shape := ⟨2, ![256, 1]⟩
abbrev S2x32x256x4096 : Shape := ⟨4, ![2, 32, 256, 4096]⟩
abbrev S2x1x256x4096 : Shape := ⟨4, ![2, 1, 256, 4096]⟩
abbrev S1x1x256x4096 : Shape := ⟨4, ![1, 1, 256, 4096]⟩
abbrev S2x32x256x64x64 : Shape := ⟨5, ![2, 32, 256, 64, 64]⟩

abbrev nBuf : Space → Nat
  | .hbm => 98
  | .vmem => 19
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S2x2x256, .f32⟩
  | .hbm, ⟨3, _⟩ => ⟨S2x256, .f32⟩
  | .hbm, ⟨4, _⟩ => ⟨S32x256x4096, .f32⟩
  | .hbm, ⟨5, _⟩ => ⟨S32x256x4096, .f32⟩
  | .hbm, ⟨6, _⟩ => ⟨S5x256, .f32⟩
  | .hbm, ⟨7, _⟩ => ⟨S1x256, .f32⟩
  | .hbm, ⟨8, _⟩ => ⟨S256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x1x256, .f32⟩
  | .hbm, ⟨65, _⟩ => ⟨S256, .f32⟩
  | .hbm, ⟨66, _⟩ => ⟨S1x1x256, .f32⟩
  | .hbm, ⟨67, _⟩ => ⟨S256, .f32⟩
  | .hbm, ⟨68, _⟩ => ⟨S1x1x256, .f32⟩
  | .hbm, ⟨69, _⟩ => ⟨S256, .f32⟩
  | .hbm, ⟨70, _⟩ => ⟨S1x1x256, .f32⟩
  | .hbm, ⟨71, _⟩ => ⟨S256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S256x1, .f32⟩
  | .hbm, ⟨89, _⟩ => ⟨S256x1, .f32⟩
  | .hbm, ⟨90, _⟩ => ⟨S256x1, .f32⟩
  | .hbm, ⟨91, _⟩ => ⟨S256x1, .f32⟩
  | .hbm, ⟨92, _⟩ => ⟨S256x1, .f32⟩
  | .hbm, ⟨93, _⟩ => ⟨S256x1, .f32⟩
  | .hbm, ⟨94, _⟩ => ⟨S256x1, .f32⟩
  | .hbm, ⟨95, _⟩ => ⟨S256x1, .f32⟩
  | .hbm, ⟨96, _⟩ => ⟨S2x32x256x4096, .f32⟩
  | .hbm, ⟨97, _⟩ => ⟨S2x32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S5x256, .f32⟩
  | .local _ .vmem, ⟨5, _⟩ => ⟨S1x256x4096, .f32⟩
  | .local _ .vmem, ⟨6, _⟩ => ⟨S1x256x4096, .f32⟩
  | .local _ .vmem, ⟨7, _⟩ => ⟨S1x256x4096, .f32⟩
  | .local _ .vmem, ⟨8, _⟩ => ⟨S1x256x4096, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S2x1x256x4096, .f32⟩
  | .local _ .vmem, ⟨18, _⟩ => ⟨S2x1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2x1x256x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S32x256x64x64_S32x256x4096 : S32x256x64x64.ShapeCasts S32x256x4096
  inb_S5x256_S5x256_0_0 : ∀ a, (![0, 0] : Fin 2 → Nat) a + S5x256.size a ≤ S5x256.size a
  h_S5x256 : 0 < S5x256.numel
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S5x256_S1x256_0_0 : ∀ a, (![0, 0] : Fin 2 → Nat) a + S1x256.size a ≤ S5x256.size a
  h_S1x256 : 0 < S1x256.numel
  shapeCasts_S1x256_S256 : S1x256.ShapeCasts S256
  reduces_S256x4096_S256 : S256x4096.Reduces [1] S256
  shapeCasts_S256_S1x256 : S256.ShapeCasts S1x256
  inb_S5x256_S1x256_1_0 : ∀ a, (![1, 0] : Fin 2 → Nat) a + S1x256.size a ≤ S5x256.size a
  inb_S5x256_S1x256_2_0 : ∀ a, (![2, 0] : Fin 2 → Nat) a + S1x256.size a ≤ S5x256.size a
  inb_S5x256_S1x256_3_0 : ∀ a, (![3, 0] : Fin 2 → Nat) a + S1x256.size a ≤ S5x256.size a
  inb_S5x256_S1x256_4_0 : ∀ a, (![4, 0] : Fin 2 → Nat) a + S1x256.size a ≤ S5x256.size a
  slices_S5x256_S1x256_0_0 : S5x256.Slices ![0, 0] S1x256
  slices_S5x256_S1x256_1_0 : S5x256.Slices ![1, 0] S1x256
  slices_S5x256_S1x256_2_0 : S5x256.Slices ![2, 0] S1x256
  slices_S5x256_S1x256_3_0 : S5x256.Slices ![3, 0] S1x256
  slices_S5x256_S1x256_4_0 : S5x256.Slices ![4, 0] S1x256
  bcast_S_S256 : S_.BroadcastsInDim S256 (![] : Fin 0 → Fin S256.rank)
  slices_S2x2x256_S1x1x256_0_0_0 : S2x2x256.Slices ![0, 0, 0] S1x1x256
  shapeCasts_S1x1x256_S256 : S1x1x256.ShapeCasts S256
  slices_S2x2x256_S1x1x256_0_1_0 : S2x2x256.Slices ![0, 1, 0] S1x1x256
  slices_S2x2x256_S1x1x256_1_0_0 : S2x2x256.Slices ![1, 0, 0] S1x1x256
  slices_S2x2x256_S1x1x256_1_1_0 : S2x2x256.Slices ![1, 1, 0] S1x1x256
  slices_S2x256_S1x256_0_0 : S2x256.Slices ![0, 0] S1x256
  slices_S2x256_S1x256_1_0 : S2x256.Slices ![1, 0] S1x256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S2x1x256x4096_S1x1x256x4096_0_0_0_0 : ∀ a, (![0, 0, 0, 0] : Fin 4 → Nat) a + S1x1x256x4096.size a ≤ S2x1x256x4096.size a
  h_S1x1x256x4096 : 0 < S1x1x256x4096.numel
  shapeCasts_S1x1x256x4096_S256x4096 : S1x1x256x4096.ShapeCasts S256x4096
  shapeCasts_S256x4096_S1x1x256x4096 : S256x4096.ShapeCasts S1x1x256x4096
  inb_S2x1x256x4096_S1x1x256x4096_1_0_0_0 : ∀ a, (![1, 0, 0, 0] : Fin 4 → Nat) a + S1x1x256x4096.size a ≤ S2x1x256x4096.size a
  shapeCasts_S2x32x256x4096_S2x32x256x64x64 : S2x32x256x4096.ShapeCasts S2x32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x256.size a ≤ S5x256.size a
  hwx0_2 : ∀ i : grid0.Coords, EltTy.bits .f32 = 32 ∨ (Rect.block (s := S5x256) S5x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S32x256x4096.size a
  hwx1_0 : ∀ i : grid1.Coords, EltTy.bits .f32 = 32 ∨ (Rect.block (s := S32x256x4096) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S32x256x4096.size a
  hwx1_1 : ∀ i : grid1.Coords, EltTy.bits .f32 = 32 ∨ (Rect.block (s := S32x256x4096) S1x256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S256x1.size a
  hwx1_7 : ∀ i : grid1.Coords, EltTy.bits .f32 = 32 ∨ (Rect.block (s := S256x1) S256x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S256x1.size a
  hwx1_8 : ∀ i : grid1.Coords, EltTy.bits .f32 = 32 ∨ (Rect.block (s := S256x1) S256x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S256x1.size a
  hwx1_9 : ∀ i : grid1.Coords, EltTy.bits .f32 = 32 ∨ (Rect.block (s := S256x1) S256x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2x1x256x4096.size a ≤ S2x32x256x4096.size a
  hwx1_10 : ∀ i : grid1.Coords, EltTy.bits .f32 = 32 ∨ (Rect.block (s := S2x32x256x4096) S2x1x256x4096.size (cc1_transform_10 i) (hinb1_10 i)).WholeWords (EltTy.packing .f32)

variable [Facts₀]

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v77) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v79) S256x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v80) S256x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v81) S256x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v82) S256x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v83) S2x1x256x4096.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S2x2x256 : Shape := ⟨3, ![2, 2, 256]⟩
abbrev S2x256 : Shape := ⟨2, ![2, 256]⟩
abbrev S_ : Shape := ⟨0, ![]⟩
abbrev S256 : Shape := ⟨1, ![256]⟩
abbrev S1x256x1x1 : Shape := ⟨4, ![1, 256, 1, 1]⟩
abbrev S1x1x256 : Shape := ⟨3, ![1, 1, 256]⟩
abbrev S1x256 : Shape := ⟨2, ![1, 256]⟩
abbrev S1x32x256x64x64 : Shape := ⟨5, ![1, 32, 256, 64, 64]⟩
abbrev S2x32x256x64x64 : Shape := ⟨5, ![2, 32, 256, 64, 64]⟩

abbrev nBuf : Space → Nat
  | .hbm => 113
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S2x2x256, .f32⟩
  | .hbm, ⟨3, _⟩ => ⟨S2x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S1x256x1x1, .f32⟩
  | .hbm, ⟨15, _⟩ => ⟨S32x256x64x64, .f32⟩
  | .hbm, ⟨16, _⟩ => ⟨S32x256x64x64, .f32⟩
  | .hbm, ⟨17, _⟩ => ⟨S1x256x1x1, .f32⟩
  | .hbm, ⟨18, _⟩ => ⟨S32x256x64x64, .f32⟩
  | .hbm, ⟨19, _⟩ => ⟨S32x256x64x64, .f32⟩
  | .hbm, ⟨20, _⟩ => ⟨S32x256x64x64, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S32x256x64x64, .f32⟩
  | .hbm, ⟨30, _⟩ => ⟨S_, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S32x256x64x64, .f32⟩
  | .hbm, ⟨39, _⟩ => ⟨S_, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256x1x1, .f32⟩
  | .hbm, ⟨65, _⟩ => ⟨S32x256x64x64, .f32⟩
  | .hbm, ⟨66, _⟩ => ⟨S32x256x64x64, .f32⟩
  | .hbm, ⟨67, _⟩ => ⟨S1x256x1x1, .f32⟩
  | .hbm, ⟨68, _⟩ => ⟨S32x256x64x64, .f32⟩
  | .hbm, ⟨69, _⟩ => ⟨S32x256x64x64, .f32⟩
  | .hbm, ⟨70, _⟩ => ⟨S32x256x64x64, .f32⟩
  | .hbm, ⟨71, _⟩ => ⟨S1x256x1x1, .f32⟩
  | .hbm, ⟨72, _⟩ => ⟨S32x256x64x64, .f32⟩
  | .hbm, ⟨73, _⟩ => ⟨S32x256x64x64, .f32⟩
  | .hbm, ⟨74, _⟩ => ⟨S1x256x1x1, .f32⟩
  | .hbm, ⟨75, _⟩ => ⟨S32x256x64x64, .f32⟩
  | .hbm, ⟨76, _⟩ => ⟨S32x256x64x64, .f32⟩
  | .hbm, ⟨77, _⟩ => ⟨S32x256x64x64, .f32⟩
  | .hbm, ⟨78, _⟩ => ⟨S1x1x256, .f32⟩
  | .hbm, ⟨79, _⟩ => ⟨S256, .f32⟩
  | .hbm, ⟨80, _⟩ => ⟨S1x256x1x1, .f32⟩
  | .hbm, ⟨81, _⟩ => ⟨S32x256x64x64, .f32⟩
  | .hbm, ⟨82, _⟩ => ⟨S32x256x64x64, .f32⟩
  | .hbm, ⟨83, _⟩ => ⟨S1x1x256, .f32⟩
  | .hbm, ⟨84, _⟩ => ⟨S256, .f32⟩
  | .hbm, ⟨85, _⟩ => ⟨S1x256x1x1, .f32⟩
  | .hbm, ⟨86, _⟩ => ⟨S32x256x64x64, .f32⟩
  | .hbm, ⟨87, _⟩ => ⟨S32x256x64x64, .f32⟩
  | .hbm, ⟨88, _⟩ => ⟨S32x256x64x64, .f32⟩
  | .hbm, ⟨89, _⟩ => ⟨S1x256, .f32⟩
  | .hbm, ⟨90, _⟩ => ⟨S256, .f32⟩
  | .hbm, ⟨91, _⟩ => ⟨S1x256x1x1, .f32⟩
  | .hbm, ⟨92, _⟩ => ⟨S32x256x64x64, .f32⟩
  | .hbm, ⟨93, _⟩ => ⟨S32x256x64x64, .f32⟩
  | .hbm, ⟨94, _⟩ => ⟨S1x1x256, .f32⟩
  | .hbm, ⟨95, _⟩ => ⟨S256, .f32⟩
  | .hbm, ⟨96, _⟩ => ⟨S1x256x1x1, .f32⟩
  | .hbm, ⟨97, _⟩ => ⟨S32x256x64x64, .f32⟩
  | .hbm, ⟨98, _⟩ => ⟨S32x256x64x64, .f32⟩
  | .hbm, ⟨99, _⟩ => ⟨S1x1x256, .f32⟩
  | .hbm, ⟨100, _⟩ => ⟨S256, .f32⟩
  | .hbm, ⟨101, _⟩ => ⟨S1x256x1x1, .f32⟩
  | .hbm, ⟨102, _⟩ => ⟨S32x256x64x64, .f32⟩
  | .hbm, ⟨103, _⟩ => ⟨S32x256x64x64, .f32⟩
  | .hbm, ⟨104, _⟩ => ⟨S32x256x64x64, .f32⟩
  | .hbm, ⟨105, _⟩ => ⟨S1x256, .f32⟩
  | .hbm, ⟨106, _⟩ => ⟨S256, .f32⟩
  | .hbm, ⟨107, _⟩ => ⟨S1x256x1x1, .f32⟩
  | .hbm, ⟨108, _⟩ => ⟨S32x256x64x64, .f32⟩
  | .hbm, ⟨109, _⟩ => ⟨S32x256x64x64, .f32⟩
  | .hbm, ⟨110, _⟩ => ⟨S1x32x256x64x64, .f32⟩
  | .hbm, ⟨111, _⟩ => ⟨S1x32x256x64x64, .f32⟩
  | .hbm, ⟨112, _⟩ => ⟨S2x32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩

abbrev nD : Nat := 1
abbrev τ : Topo := Topo.v7x

variable {F : FTy → Type} [FloatOps F]

class Facts₀ : Prop where
  reducesTo_S32x256x64x64_S256_d0_2_3 : S32x256x64x64.ReducesTo [0, 2, 3] S256
  h_S_ : 0 < S_.numel
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S32x256x64x64_0_1_2_3 : S1x256x1x1.BroadcastsInDim S32x256x64x64 (![0, 1, 2, 3] : Fin 4 → Fin S32x256x64x64.rank)
  slices_S2x2x256_S1x1x256_0_0_0 : S2x2x256.Slices ![0, 0, 0] S1x1x256
  shapeCasts_S1x1x256_S256 : S1x1x256.ShapeCasts S256
  slices_S2x2x256_S1x1x256_0_1_0 : S2x2x256.Slices ![0, 1, 0] S1x1x256
  slices_S2x256_S1x256_0_0 : S2x256.Slices ![0, 0] S1x256
  shapeCasts_S1x256_S256 : S1x256.ShapeCasts S256
  slices_S2x2x256_S1x1x256_1_0_0 : S2x2x256.Slices ![1, 0, 0] S1x1x256
  slices_S2x2x256_S1x1x256_1_1_0 : S2x2x256.Slices ![1, 1, 0] S1x1x256
  slices_S2x256_S1x256_1_0 : S2x256.Slices ![1, 0] S1x256
  bcast_S32x256x64x64_S1x32x256x64x64_1_2_3_4 : S32x256x64x64.BroadcastsInDim S1x32x256x64x64 (![1, 2, 3, 4] : Fin 4 → Fin S1x32x256x64x64.rank)
  concatenates_S1x32x256x64x64_S1x32x256x64x64_S2x32x256x64x64_d0 : Shape.Concatenates [S1x32x256x64x64, S1x32x256x64x64] S2x32x256x64x64 0

variable [Facts₀]

class Facts : Prop extends Facts₀ where

variable [Facts]
-- ==== Proof.Rd.lean ====
/-
  Reading an array of extended reals at an index, with the array's shape explicit: the value has the plain type of
  an extended real, so that sums, products and differences of such readings are ordinary arithmetic.
-/
import Idealize.ShloMosaic.PureOps.Ideal

namespace Cert.BN

open Idealize.ShloMosaic

/-- The array `x` of shape `S` read at the index `i`. -/
abbrev rd (S : Shape) (x : S.Idx → EReal) (i : S.Idx) : EReal := x i

end Cert.BN
-- ==== Proof.KStats.lean ====
/-
  The statistics pass.  Its output is a 5 × 256 table: for each channel the sums, over the 32 images and the 4096
  positions of an image, of a, b, a², b² and a·b (a the real part, b the imaginary part of a sample).  The table is
  zeroed at the first image and each image adds its own 4096-term row sums, so after the last image every entry is
  the double sum over images and positions.
-/
import proofs.«138593_j27676769255584_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138593_j27676769255584_1_alg».proof.Proof.Rd

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen Cert.BN
open Idealize.ShloMosaic.Tactic

variable (V : (c : Dev nD) → (b : Ref sig .tc) → Buf (Elt Ideal) ((c : Thread nD τ).loc b))

/-- The five statistics of one sample (u, v): u, v, u², v², u·v. -/
def stat : Fin 5 → EReal → EReal → EReal
  | 0, u, _ => u
  | 1, _, v => v
  | 2, u, _ => u * u
  | 3, _, v => v * v
  | 4, u, v => u * v

/-- A lane sum of a [256, 4096] block at channel ch is the sum over the 4096 positions. -/
theorem rowsum_apply (w : FVec Ideal S256x4096 .f32) (ch : Fin 256) :
    multiReduction .add [1] S256 w 0x00000000#32 reduces_S256x4096_S256 (.inl rfl) rfl (ix1 ch)
      = ∑ p : Fin 4096, w (ix2 ch p) := by
  refine (Ideal.multiReduction_add_single w _ reduces_S256x4096_S256 (.inl rfl) rfl (ix1 ch)).trans ?_
  refine Finset.sum_congr rfl fun p _ => congrArg w ?_
  funext a
  match a with
  | ⟨0, _⟩ => exact Fin.ext rfl
  | ⟨1, _⟩ => exact Fin.ext rfl

/-- The [1, 256, 4096] block seen as [256, 4096]: entry (ch, p) is entry (0, ch, p). -/
theorem pay4_apply (v : Vec Ideal S1x256x4096 .f32) (ch : Fin 256) (p : Fin 4096) :
    k0_pay4 v (ix2 ch p) = v (ix3 (0 : Fin 1) ch p) := by
  unfold k0_pay4
  exact shapeCast_1ab_ab_apply v _ ch p

/-- The same for the second block. -/
theorem pay5_apply (v : Vec Ideal S1x256x4096 .f32) (ch : Fin 256) (p : Fin 4096) :
    k0_pay5 v (ix2 ch p) = v (ix3 (0 : Fin 1) ch p) := by
  unfold k0_pay5
  exact shapeCast_1ab_ab_apply v _ ch p

/-- The shape of every row update: the old row plus a lane sum, as a [1, 256] row. -/
theorem rowupd_apply (old : Vec Ideal S1x256 .f32) (w : FVec Ideal S256x4096 .f32) (u : Fin 1) (ch : Fin 256) :
    shapeCast S1x256 (addf (shapeCast S256 old shapeCasts_S1x256_S256)
        (multiReduction .add [1] S256 w 0x00000000#32 reduces_S256x4096_S256 (.inl rfl) rfl)) shapeCasts_S256_S1x256 (ix2 u ch)
      = old (ix2 (0 : Fin 1) ch) + ∑ p : Fin 4096, w (ix2 ch p) := by
  refine (shapeCast_a_1a_apply _ shapeCasts_S256_S1x256 u ch).trans ?_
  refine (addf_apply _ _ (ix1 ch)).trans ?_
  exact congrArg₂ (· + ·) (shapeCast_1a_a_apply old shapeCasts_S1x256_S256 ch) (rowsum_apply w ch)

/-- Row 0's update at (u, ch): the old entry plus the sum over the positions of channel ch's real parts. -/
theorem pay6_apply (v3 : Vec Ideal S1x256x4096 .f32) (old : Vec Ideal S1x256 .f32) (u : Fin 1) (ch : Fin 256) :
    k0_pay6 v3 old (ix2 u ch) = old (ix2 (0 : Fin 1) ch) + ∑ p : Fin 4096, v3 (ix3 (0 : Fin 1) ch p) := by
  unfold k0_pay6
  refine (rowupd_apply old (k0_pay4 v3) u ch).trans ?_
  exact congrArg (old (ix2 (0 : Fin 1) ch) + ·) (Finset.sum_congr rfl fun p _ => pay4_apply v3 ch p)

/-- Row 1's: the old entry plus the sum of the imaginary parts. -/
theorem pay7_apply (v5 : Vec Ideal S1x256x4096 .f32) (old : Vec Ideal S1x256 .f32) (u : Fin 1) (ch : Fin 256) :
    k0_pay7 v5 old (ix2 u ch) = old (ix2 (0 : Fin 1) ch) + ∑ p : Fin 4096, v5 (ix3 (0 : Fin 1) ch p) := by
  unfold k0_pay7
  refine (rowupd_apply old (k0_pay5 v5) u ch).trans ?_
  exact congrArg (old (ix2 (0 : Fin 1) ch) + ·) (Finset.sum_congr rfl fun p _ => pay5_apply v5 ch p)

/-- Row 2's: the old entry plus the sum of the squared real parts. -/
theorem pay8_apply (v3 : Vec Ideal S1x256x4096 .f32) (old : Vec Ideal S1x256 .f32) (u : Fin 1) (ch : Fin 256) :
    k0_pay8 v3 old (ix2 u ch)
      = old (ix2 (0 : Fin 1) ch) + ∑ p : Fin 4096, v3 (ix3 (0 : Fin 1) ch p) * v3 (ix3 (0 : Fin 1) ch p) := by
  unfold k0_pay8
  refine (rowupd_apply old (mulf (k0_pay4 v3) (k0_pay4 v3)) u ch).trans ?_
  refine congrArg (old (ix2 (0 : Fin 1) ch) + ·) (Finset.sum_congr rfl fun p _ => ?_)
  refine (mulf_apply _ _ (ix2 ch p)).trans ?_
  exact congrArg₂ (· * ·) (pay4_apply v3 ch p) (pay4_apply v3 ch p)

/-- Row 3's: the old entry plus the sum of the squares of the block it is given. -/
theorem pay1_apply (v6 : FVec Ideal S256x4096 .f32) (old : Vec Ideal S1x256 .f32) (u : Fin 1) (ch : Fin 256) :
    k0_pay1 v6 old (ix2 u ch) = old (ix2 (0 : Fin 1) ch) + ∑ p : Fin 4096, v6 (ix2 ch p) * v6 (ix2 ch p) := by
  unfold k0_pay1
  refine (rowupd_apply old (mulf v6 v6) u ch).trans ?_
  exact congrArg (old (ix2 (0 : Fin 1) ch) + ·) (Finset.sum_congr rfl fun p _ => mulf_apply v6 v6 (ix2 ch p))

/-- Row 4's: the old entry plus the sum of the products of the two blocks it is given. -/
theorem pay2_apply (v4 v6 : FVec Ideal S256x4096 .f32) (old : Vec Ideal S1x256 .f32) (u : Fin 1) (ch : Fin 256) :
    k0_pay2 v4 v6 old (ix2 u ch) = old (ix2 (0 : Fin 1) ch) + ∑ p : Fin 4096, v4 (ix2 ch p) * v6 (ix2 ch p) := by
  unfold k0_pay2
  refine (rowupd_apply old (mulf v4 v6) u ch).trans ?_
  exact congrArg (old (ix2 (0 : Fin 1) ch) + ·) (Finset.sum_congr rfl fun p _ => mulf_apply v4 v6 (ix2 ch p))

/-- The zero offsets of a rank-3 block, as the constant function. -/
theorem hz3 : (![0, 0, 0] : Fin 3 → Nat) = fun _ => 0 := funext fun a => by fin_cases a <;> rfl

/-- Row r of the table, as a [1, 256] rectangle: its entry (u, ch) sits at (r, ch). -/
theorem row_emb (r : Nat) (hr : r < 5) (inb : ∀ a, (![r, 0] : Fin 2 → Nat) a + S1x256.size a ≤ S5x256.size a)
    (u : Fin 1) (ch : Fin 256) :
    (Rect.unit (s := S5x256) ![r, 0] S1x256.size inb).emb (ix2 u ch) = ix2 (⟨r, hr⟩ : Fin 5) ch := by
  funext a
  match a with
  | ⟨0, _⟩ => exact Fin.ext (by show r + 1 * u.val = r; have := u.isLt; omega)
  | ⟨1, _⟩ => exact Fin.ext (by show 0 + 1 * ch.val = ch.val; omega)

/-- Reading row r of the table through that rectangle. -/
theorem ld_row (xo : Vec Ideal S5x256 .f32) (r : Nat) (hr : r < 5)
    (inb : ∀ a, (![r, 0] : Fin 2 → Nat) a + S1x256.size a ≤ S5x256.size a) (u : Fin 1) (ch : Fin 256) :
    View.ld xo (Rect.unit (s := S5x256) ![r, 0] S1x256.size inb) (ix2 u ch) = xo (ix2 (⟨r, hr⟩ : Fin 5) ch) :=
  congrArg xo (row_emb r hr inb u ch)

/-- A row store whose payload agrees with one function G of the table index on row r is a block of G. -/
theorem piece_ok (G : S5x256.Idx → EReal) (r : Nat) (hr : r < 5)
    (inb : ∀ a, (![r, 0] : Fin 2 → Nat) a + S1x256.size a ≤ S5x256.size a) (w : Vec Ideal S1x256 .f32)
    (hw : ∀ (u : Fin 1) (ch : Fin 256), w (ix2 u ch) = G (ix2 (⟨r, hr⟩ : Fin 5) ch)) :
    ∀ x : (Rect.unit (s := S5x256) ![r, 0] S1x256.size inb).shape.Idx,
      w x = G ((Rect.unit (s := S5x256) ![r, 0] S1x256.size inb).emb x) := by
  intro x
  obtain ⟨u, ch, rfl⟩ : ∃ (u : Fin 1) (ch : Fin 256), x = ix2 u ch := ⟨x 0, x 1, eq_ix2 x⟩
  rw [row_emb r hr inb u ch]
  exact hw u ch

/-- What one image adds to entry j of the table: the sum over the positions of statistic j₀ of channel j₁'s samples. -/
def incr (x0 x1 : Vec Ideal S1x256x4096 .f32) (j : S5x256.Idx) : EReal :=
  ∑ p : Fin 4096, stat (j 0) (x0 (ix3 (0 : Fin 1) (j 1) p)) (x1 (ix3 (0 : Fin 1) (j 1) p))

/-- An image other than the first leaves, at (k, ch), what the image before left plus its own contribution: each of
    the five row stores is the old row plus that row's lane sum, and together they cover the table. -/
theorem out_B (c : Dev nD) (i : grid0.Coords) (a1 : Memref sig .tc .vmem S1x256x4096 .f32) (h1 : a1.IsWhole)
    (a2 : Memref sig .tc .vmem S1x256x4096 .f32) (h2 : a2.IsWhole) (a3 : Memref sig .tc .vmem S5x256 .f32) (h3 : a3.IsWhole)
    (hc : ¬cond0_0 i) (x0 x1 : Vec Ideal S1x256x4096 .f32) (xo : Vec Ideal S5x256 .f32) (k : Fin 5) (ch : Fin 256) :
    out0_B_2 (F := Ideal) c i a1 h1 a2 h2 a3 h3 hc x0 x1 xo (ix2 k ch) = xo (ix2 k ch) + incr x0 x1 (ix2 k ch) := by
  have hcov := cover0_B_2 (F := Ideal) c i a1 h1 a2 h2 a3 h3 hc x0 x1 xo (ix2 k ch)
  unfold out0_B_2
  rw [View.read_writes_eq_canon _ _ _ (cover0_B_2 c i a1 h1 a2 h2 a3 h3 hc x0 x1 xo)]
  revert hcov
  unfold kernelRun0_B
  dsimp only
  sl_unfold_words
  simp only [View.readAt_eq_ld, h1.read_unread, h2.read_unread, h3.read_unread, View.ld_unit_zero (S := S1x256x4096) hz3]
  intro hcov
  refine View.canon_apply_of_pieces (fun j => xo j + incr x0 x1 j) _ ?_ (ix2 k ch) hcov
  intro q hq
  simp only [List.mem_cons, List.not_mem_nil, or_false] at hq
  rcases hq with rfl | rfl | rfl | rfl | rfl <;> dsimp only
  · refine piece_ok (fun j => xo j + incr x0 x1 j) 4 (by decide) _ _ fun u d => ?_
    refine (pay2_apply _ _ _ u d).trans ?_
    refine congrArg₂ (· + ·) (ld_row xo 4 (by decide) _ 0 d) (Finset.sum_congr rfl fun p _ => ?_)
    exact congrArg₂ (· * ·) (pay4_apply x0 d p) (pay5_apply x1 d p)
  · refine piece_ok (fun j => xo j + incr x0 x1 j) 3 (by decide) _ _ fun u d => ?_
    refine (pay1_apply _ _ u d).trans ?_
    refine congrArg₂ (· + ·) (ld_row xo 3 (by decide) _ 0 d) (Finset.sum_congr rfl fun p _ => ?_)
    exact congrArg₂ (· * ·) (pay5_apply x1 d p) (pay5_apply x1 d p)
  · refine piece_ok (fun j => xo j + incr x0 x1 j) 2 (by decide) _ _ fun u d => ?_
    refine (pay8_apply _ _ u d).trans ?_
    exact congrArg₂ (· + ·) (ld_row xo 2 (by decide) _ 0 d) rfl
  · refine piece_ok (fun j => xo j + incr x0 x1 j) 1 (by decide) _ _ fun u d => ?_
    refine (pay7_apply _ _ u d).trans ?_
    exact congrArg₂ (· + ·) (ld_row xo 1 (by decide) _ 0 d) rfl
  · refine piece_ok (fun j => xo j + incr x0 x1 j) 0 (by decide) _ _ fun u d => ?_
    refine (pay6_apply _ _ u d).trans ?_
    exact congrArg₂ (· + ·) (ld_row xo 0 (by decide) _ 0 d) rfl

/-- The zero offsets of the table, as the constant function. -/
theorem hz2 : (![0, 0] : Fin 2 → Nat) = fun _ => 0 := funext fun a => by fin_cases a <;> rfl

/-- The zero table the first image stores. -/
theorem pay3_apply (j : S5x256.Idx) : k0_pay3 (F := Ideal) j = 0 := by
  unfold k0_pay3
  exact Ideal.ofBits_zero_f32

/-- Entry (r, d) lies in row r's rectangle … -/
theorem row_mem (r : Nat) (hr : r < 5) (inb : ∀ a, (![r, 0] : Fin 2 → Nat) a + S1x256.size a ≤ S5x256.size a) (d : Fin 256) :
    ix2 (⟨r, hr⟩ : Fin 5) d ∈ (Rect.unit (s := S5x256) ![r, 0] S1x256.size inb).set := by
  rw [← row_emb r hr inb 0 d, ← Rect.map_emb_univ]
  exact Finset.mem_map_of_mem _ (Finset.mem_univ _)

/-- … and in no other row's. -/
theorem row_not_mem (r r' : Nat) (hr : r < 5) (hne : r ≠ r')
    (inb' : ∀ a, (![r', 0] : Fin 2 → Nat) a + S1x256.size a ≤ S5x256.size a) (d : Fin 256) :
    ix2 (⟨r, hr⟩ : Fin 5) d ∉ (Rect.unit (s := S5x256) ![r', 0] S1x256.size inb').set := by
  rw [Rect.mem_set_unit]
  intro h
  have h0 : r' ≤ r ∧ r < r' + 1 := h 0
  omega

/-- Where the first list of stores covers an index, stores made before them do not show there. -/
theorem canon_append_of_cover {Val : EltTy → Type} [∀ e, Nonempty (Val e)] {S : Shape} {e : EltTy} :
    ∀ (L L' : List (View.Piece Val S e)) (y : S.Idx), (∃ p ∈ L, y ∈ p.1.set) → View.canon (L ++ L') y = View.canon L y
  | [], _, _, h => by obtain ⟨p, hp, _⟩ := h; exact absurd hp List.not_mem_nil
  | ⟨r, w⟩ :: L, L', y, h => by
    by_cases hm : y ∈ r.set
    · obtain ⟨x, rfl⟩ : ∃ x, r.emb x = y := r.exists_idx_of_mem hm
      exact (View.canon_cons_emb r w (L ++ L') x).trans (View.canon_cons_emb r w L x).symm
    · rw [List.cons_append, View.canon_cons_of_not_mem _ _ hm, View.canon_cons_of_not_mem _ _ hm]
      refine canon_append_of_cover L L' y ?_
      obtain ⟨q, hq, hyq⟩ := h
      rcases List.mem_cons.mp hq with rfl | hq'
      · exact absurd hyq hm
      · exact ⟨q, hq', hyq⟩

/-- Stores that all miss an index, made after the zero table was stored, leave 0 there. -/
theorem canon_zero_of_miss (y : S5x256.Idx) (inbZ : ∀ a, (![0, 0] : Fin 2 → Nat) a + S5x256.size a ≤ S5x256.size a) :
    ∀ (L : List (View.Piece (Elt Ideal) S5x256 .f32)), (∀ q ∈ L, y ∉ q.1.set) →
      View.canon (L ++ [(⟨Rect.unit (s := S5x256) ![0, 0] S5x256.size inbZ, k0_pay3 (F := Ideal)⟩ : View.Piece (Elt Ideal) S5x256 .f32)]) y = 0
  | [], _ => by
    show View.canon [(⟨Rect.unit (s := S5x256) ![0, 0] S5x256.size inbZ, k0_pay3 (F := Ideal)⟩ : View.Piece (Elt Ideal) S5x256 .f32)] y = 0
    rw [View.canon_unit_zero hz2]
    exact pay3_apply y
  | q :: L, h => by
    rw [List.cons_append, View.canon_cons_of_not_mem _ _ (h q List.mem_cons_self)]
    exact canon_zero_of_miss y inbZ L fun q' hq' => h q' (List.mem_cons_of_mem _ hq')

/-- So row r, loaded after the zero store and after row stores that all miss it, reads 0. -/
theorem readCov_row_zero (v : View sig .tc .vmem S5x256 .f32) (r : Nat) (hr : r < 5)
    (inb : ∀ a, (![r, 0] : Fin 2 → Nat) a + S1x256.size a ≤ S5x256.size a)
    (inbZ : ∀ a, (![0, 0] : Fin 2 → Nat) a + S5x256.size a ≤ S5x256.size a)
    (L : List (View.Piece (Elt Ideal) S5x256 .f32)) (hL : ∀ q ∈ L, ∀ d : Fin 256, ix2 (⟨r, hr⟩ : Fin 5) d ∉ q.1.set)
    (u : Fin 1) (d : Fin 256) :
    v.readCov (L ++ [(⟨Rect.unit (s := S5x256) ![0, 0] S5x256.size inbZ, k0_pay3 (F := Ideal)⟩ : View.Piece (Elt Ideal) S5x256 .f32)])
      (Rect.unit (s := S5x256) ![r, 0] S1x256.size inb).toLoadRect (ix2 u d) = 0 := by
  rw [View.readCov_eq_canon']
  show View.canon _ ((Rect.unit (s := S5x256) ![r, 0] S1x256.size inb).emb (ix2 u d)) = 0
  rw [row_emb r hr inb u d]
  exact canon_zero_of_miss _ inbZ L fun q hq => hL q hq d

/-- Row 0, loaded at the first image after the zero store and the stores of the rows before it, reads 0. -/
theorem readrow0 (v : View sig .tc .vmem S5x256 .f32) (i0 : ∀ a, (![0, 0] : Fin 2 → Nat) a + S1x256.size a ≤ S5x256.size a) (iZ : ∀ a, (![0, 0] : Fin 2 → Nat) a + S5x256.size a ≤ S5x256.size a) (u : Fin 1) (d : Fin 256) :
    v.readCov [(⟨Rect.unit (s := S5x256) ![0, 0] S5x256.size iZ, k0_pay3 (F := Ideal)⟩ : View.Piece (Elt Ideal) S5x256 .f32)] (Rect.unit (s := S5x256) ![0, 0] S1x256.size i0).toLoadRect (ix2 u d) = 0 :=
  readCov_row_zero v 0 (by decide) i0 iZ [] (fun q hq => absurd hq List.not_mem_nil) u d

/-- Row 1, loaded at the first image after the zero store and the stores of the rows before it, reads 0. -/
theorem readrow1 (v : View sig .tc .vmem S5x256 .f32) (w0 : Vec Ideal S1x256 .f32) (i0 : ∀ a, (![0, 0] : Fin 2 → Nat) a + S1x256.size a ≤ S5x256.size a) (i1 : ∀ a, (![1, 0] : Fin 2 → Nat) a + S1x256.size a ≤ S5x256.size a) (iZ : ∀ a, (![0, 0] : Fin 2 → Nat) a + S5x256.size a ≤ S5x256.size a) (u : Fin 1) (d : Fin 256) :
    v.readCov [(⟨Rect.unit (s := S5x256) ![0, 0] S1x256.size i0, w0⟩ : View.Piece (Elt Ideal) S5x256 .f32), (⟨Rect.unit (s := S5x256) ![0, 0] S5x256.size iZ, k0_pay3 (F := Ideal)⟩ : View.Piece (Elt Ideal) S5x256 .f32)] (Rect.unit (s := S5x256) ![1, 0] S1x256.size i1).toLoadRect (ix2 u d) = 0 :=
  readCov_row_zero v 1 (by decide) i1 iZ [(⟨Rect.unit (s := S5x256) ![0, 0] S1x256.size i0, w0⟩ : View.Piece (Elt Ideal) S5x256 .f32)] (fun q hq d => by
      simp only [List.mem_cons, List.not_mem_nil, or_false] at hq
      rcases hq with rfl
      · exact row_not_mem 1 0 (by decide) (by decide) i0 d) u d

/-- Row 2, loaded at the first image after the zero store and the stores of the rows before it, reads 0. -/
theorem readrow2 (v : View sig .tc .vmem S5x256 .f32) (w1 w0 : Vec Ideal S1x256 .f32) (i1 : ∀ a, (![1, 0] : Fin 2 → Nat) a + S1x256.size a ≤ S5x256.size a) (i0 : ∀ a, (![0, 0] : Fin 2 → Nat) a + S1x256.size a ≤ S5x256.size a) (i2 : ∀ a, (![2, 0] : Fin 2 → Nat) a + S1x256.size a ≤ S5x256.size a) (iZ : ∀ a, (![0, 0] : Fin 2 → Nat) a + S5x256.size a ≤ S5x256.size a) (u : Fin 1) (d : Fin 256) :
    v.readCov [(⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32), (⟨Rect.unit (s := S5x256) ![0, 0] S5x256.size iZ, k0_pay3 (F := Ideal)⟩ : View.Piece (Elt Ideal) S5x256 .f32)] (Rect.unit (s := S5x256) ![2, 0] S1x256.size i2).toLoadRect (ix2 u d) = 0 :=
  readCov_row_zero v 2 (by decide) i2 iZ [(⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32)] (fun q hq d => by
      simp only [List.mem_cons, List.not_mem_nil, or_false] at hq
      rcases hq with rfl | rfl
      · exact row_not_mem 2 1 (by decide) (by decide) i1 d
      · exact row_not_mem 2 0 (by decide) (by decide) i0 d) u d

/-- Row 3, loaded at the first image after the zero store and the stores of the rows before it, reads 0. -/
theorem readrow3 (v : View sig .tc .vmem S5x256 .f32) (w2 w1 w0 : Vec Ideal S1x256 .f32) (i2 : ∀ a, (![2, 0] : Fin 2 → Nat) a + S1x256.size a ≤ S5x256.size a) (i1 : ∀ a, (![1, 0] : Fin 2 → Nat) a + S1x256.size a ≤ S5x256.size a) (i0 : ∀ a, (![0, 0] : Fin 2 → Nat) a + S1x256.size a ≤ S5x256.size a) (i3 : ∀ a, (![3, 0] : Fin 2 → Nat) a + S1x256.size a ≤ S5x256.size a) (iZ : ∀ a, (![0, 0] : Fin 2 → Nat) a + S5x256.size a ≤ S5x256.size a) (u : Fin 1) (d : Fin 256) :
    v.readCov [(⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32), (⟨Rect.unit (s := S5x256) ![0, 0] S5x256.size iZ, k0_pay3 (F := Ideal)⟩ : View.Piece (Elt Ideal) S5x256 .f32)] (Rect.unit (s := S5x256) ![3, 0] S1x256.size i3).toLoadRect (ix2 u d) = 0 :=
  readCov_row_zero v 3 (by decide) i3 iZ [(⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32)] (fun q hq d => by
      simp only [List.mem_cons, List.not_mem_nil, or_false] at hq
      rcases hq with rfl | rfl | rfl
      · exact row_not_mem 3 2 (by decide) (by decide) i2 d
      · exact row_not_mem 3 1 (by decide) (by decide) i1 d
      · exact row_not_mem 3 0 (by decide) (by decide) i0 d) u d

/-- Row 4, loaded at the first image after the zero store and the stores of the rows before it, reads 0. -/
theorem readrow4 (v : View sig .tc .vmem S5x256 .f32) (w3 w2 w1 w0 : Vec Ideal S1x256 .f32) (i3 : ∀ a, (![3, 0] : Fin 2 → Nat) a + S1x256.size a ≤ S5x256.size a) (i2 : ∀ a, (![2, 0] : Fin 2 → Nat) a + S1x256.size a ≤ S5x256.size a) (i1 : ∀ a, (![1, 0] : Fin 2 → Nat) a + S1x256.size a ≤ S5x256.size a) (i0 : ∀ a, (![0, 0] : Fin 2 → Nat) a + S1x256.size a ≤ S5x256.size a) (i4 : ∀ a, (![4, 0] : Fin 2 → Nat) a + S1x256.size a ≤ S5x256.size a) (iZ : ∀ a, (![0, 0] : Fin 2 → Nat) a + S5x256.size a ≤ S5x256.size a) (u : Fin 1) (d : Fin 256) :
    v.readCov [(⟨Rect.unit (s := S5x256) ![3, 0] S1x256.size i3, w3⟩ : View.Piece (Elt Ideal) S5x256 .f32), (⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32), (⟨Rect.unit (s := S5x256) ![0, 0] S5x256.size iZ, k0_pay3 (F := Ideal)⟩ : View.Piece (Elt Ideal) S5x256 .f32)] (Rect.unit (s := S5x256) ![4, 0] S1x256.size i4).toLoadRect (ix2 u d) = 0 :=
  readCov_row_zero v 4 (by decide) i4 iZ [(⟨Rect.unit (s := S5x256) ![3, 0] S1x256.size i3, w3⟩ : View.Piece (Elt Ideal) S5x256 .f32), (⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32)] (fun q hq d => by
      simp only [List.mem_cons, List.not_mem_nil, or_false] at hq
      rcases hq with rfl | rfl | rfl | rfl
      · exact row_not_mem 4 3 (by decide) (by decide) i3 d
      · exact row_not_mem 4 2 (by decide) (by decide) i2 d
      · exact row_not_mem 4 1 (by decide) (by decide) i1 d
      · exact row_not_mem 4 0 (by decide) (by decide) i0 d) u d

/-- The five row stores cover the table. -/
theorem cover_rows (w4 w3 w2 w1 w0 : Vec Ideal S1x256 .f32) (i4 : ∀ a, (![4, 0] : Fin 2 → Nat) a + S1x256.size a ≤ S5x256.size a) (i3 : ∀ a, (![3, 0] : Fin 2 → Nat) a + S1x256.size a ≤ S5x256.size a) (i2 : ∀ a, (![2, 0] : Fin 2 → Nat) a + S1x256.size a ≤ S5x256.size a) (i1 : ∀ a, (![1, 0] : Fin 2 → Nat) a + S1x256.size a ≤ S5x256.size a) (i0 : ∀ a, (![0, 0] : Fin 2 → Nat) a + S1x256.size a ≤ S5x256.size a) (k : Fin 5) (ch : Fin 256) :
    ∃ p ∈ [(⟨Rect.unit (s := S5x256) ![4, 0] S1x256.size i4, w4⟩ : View.Piece (Elt Ideal) S5x256 .f32), (⟨Rect.unit (s := S5x256) ![3, 0] S1x256.size i3, w3⟩ : View.Piece (Elt Ideal) S5x256 .f32), (⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32)], ix2 k ch ∈ p.1.set := by
  obtain ⟨kv, hk⟩ := k
  have hcases : kv = 0 ∨ kv = 1 ∨ kv = 2 ∨ kv = 3 ∨ kv = 4 := by omega
  rcases hcases with rfl | rfl | rfl | rfl | rfl
  · exact ⟨(⟨Rect.unit (s := S5x256) ![0, 0] S1x256.size i0, w0⟩ : View.Piece (Elt Ideal) S5x256 .f32), by simp, row_mem 0 hk i0 ch⟩
  · exact ⟨(⟨Rect.unit (s := S5x256) ![1, 0] S1x256.size i1, w1⟩ : View.Piece (Elt Ideal) S5x256 .f32), by simp, row_mem 1 hk i1 ch⟩
  · exact ⟨(⟨Rect.unit (s := S5x256) ![2, 0] S1x256.size i2, w2⟩ : View.Piece (Elt Ideal) S5x256 .f32), by simp, row_mem 2 hk i2 ch⟩
  · exact ⟨(⟨Rect.unit (s := S5x256) ![3, 0] S1x256.size i3, w3⟩ : View.Piece (Elt Ideal) S5x256 .f32), by simp, row_mem 3 hk i3 ch⟩
  · exact ⟨(⟨Rect.unit (s := S5x256) ![4, 0] S1x256.size i4, w4⟩ : View.Piece (Elt Ideal) S5x256 .f32), by simp, row_mem 4 hk i4 ch⟩

/-- Five row stores that are blocks of one function G of the table index, made after any earlier store, leave G. -/
theorem canon_rows (G : S5x256.Idx → EReal) (w4 w3 w2 w1 w0 : Vec Ideal S1x256 .f32) (i4 : ∀ a, (![4, 0] : Fin 2 → Nat) a + S1x256.size a ≤ S5x256.size a) (i3 : ∀ a, (![3, 0] : Fin 2 → Nat) a + S1x256.size a ≤ S5x256.size a) (i2 : ∀ a, (![2, 0] : Fin 2 → Nat) a + S1x256.size a ≤ S5x256.size a) (i1 : ∀ a, (![1, 0] : Fin 2 → Nat) a + S1x256.size a ≤ S5x256.size a) (i0 : ∀ a, (![0, 0] : Fin 2 → Nat) a + S1x256.size a ≤ S5x256.size a)
    (z : View.Piece (Elt Ideal) S5x256 .f32)
    (hp : ∀ p ∈ [(⟨Rect.unit (s := S5x256) ![4, 0] S1x256.size i4, w4⟩ : View.Piece (Elt Ideal) S5x256 .f32), (⟨Rect.unit (s := S5x256) ![3, 0] S1x256.size i3, w3⟩ : View.Piece (Elt Ideal) S5x256 .f32), (⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32)], ∀ x : p.1.shape.Idx, p.2 x = G (p.1.emb x))
    (k : Fin 5) (ch : Fin 256) :
    View.canon [(⟨Rect.unit (s := S5x256) ![4, 0] S1x256.size i4, w4⟩ : View.Piece (Elt Ideal) S5x256 .f32), (⟨Rect.unit (s := S5x256) ![3, 0] S1x256.size i3, w3⟩ : View.Piece (Elt Ideal) S5x256 .f32), (⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32), z] (ix2 k ch) = G (ix2 k ch) :=
  (canon_append_of_cover [(⟨Rect.unit (s := S5x256) ![4, 0] S1x256.size i4, w4⟩ : View.Piece (Elt Ideal) S5x256 .f32), (⟨Rect.unit (s := S5x256) ![3, 0] S1x256.size i3, w3⟩ : View.Piece (Elt Ideal) S5x256 .f32), (⟨Rect.unit (s := S5x256) ![2, 0] S1x256.size i2, w2⟩ : View.Piece (Elt Ideal) S5x256 .f32), (⟨Rect.unit (s := S5x256) ![1, 0] S1x256.size i1, w1⟩ : View.Piece (Elt Ideal) S5x256 .f32), (⟨Rect.unit (s := S5x256) ![0, 0] S1x256.size i0, w0⟩ : View.Piece (Elt Ideal) S5x256 .f32)] [z] (ix2 k ch) (cover_rows w4 w3 w2 w1 w0 i4 i3 i2 i1 i0 k ch)).trans
    (View.canon_apply_of_pieces G _ hp (ix2 k ch) (cover_rows w4 w3 w2 w1 w0 i4 i3 i2 i1 i0 k ch))

/-- The first image leaves, at (k, ch), its own contribution: each row is read back as 0 after the zero store, then
    stored with its lane sum added, and the five row stores cover the table over the zero store. -/
theorem out_A (c : Dev nD) (i : grid0.Coords) (a1 : Memref sig .tc .vmem S1x256x4096 .f32) (h1 : a1.IsWhole)
    (a2 : Memref sig .tc .vmem S1x256x4096 .f32) (h2 : a2.IsWhole) (a3 : Memref sig .tc .vmem S5x256 .f32) (h3 : a3.IsWhole)
    (hc : cond0_0 i) (x0 x1 : Vec Ideal S1x256x4096 .f32) (k : Fin 5) (ch : Fin 256) :
    out0_A_2 (F := Ideal) c i a1 h1 a2 h2 a3 h3 hc x0 x1 (ix2 k ch) = incr x0 x1 (ix2 k ch) := by
  unfold out0_A_2
  rw [View.read_writes_eq_canon _ _ _ (cover0_A_2 c i a1 h1 a2 h2 a3 h3 hc x0 x1)]
  unfold kernelRun0_A
  dsimp only
  sl_unfold_words
  simp only [View.readAt_eq_ld, h1.read_unread, h2.read_unread, View.ld_unit_zero (S := S1x256x4096) hz3]
  refine canon_rows (incr x0 x1) _ _ _ _ _ _ _ _ _ _ _ ?_ k ch
  intro q hq
  simp only [List.mem_cons, List.not_mem_nil, or_false] at hq
  rcases hq with rfl | rfl | rfl | rfl | rfl <;> dsimp only
  · refine piece_ok (incr x0 x1) 4 (by decide) _ _ fun u d => ?_
    refine (pay2_apply _ _ _ u d).trans ?_
    refine (congrArg₂ (· + ·) (readrow4 a3.view _ _ _ _ _ _ _ _ _ _ 0 d) (Finset.sum_congr rfl fun p _ =>
      congrArg₂ (· * ·) (pay4_apply x0 d p) (pay5_apply x1 d p))).trans ?_
    exact zero_add _
  · refine piece_ok (incr x0 x1) 3 (by decide) _ _ fun u d => ?_
    refine (pay1_apply _ _ u d).trans ?_
    refine (congrArg₂ (· + ·) (readrow3 a3.view _ _ _ _ _ _ _ _ 0 d) (Finset.sum_congr rfl fun p _ =>
      congrArg₂ (· * ·) (pay5_apply x1 d p) (pay5_apply x1 d p))).trans ?_
    exact zero_add _
  · refine piece_ok (incr x0 x1) 2 (by decide) _ _ fun u d => ?_
    refine (pay8_apply _ _ u d).trans ?_
    refine (congrArg (· + _) (readrow2 a3.view _ _ _ _ _ _ 0 d)).trans ?_
    exact zero_add _
  · refine piece_ok (incr x0 x1) 1 (by decide) _ _ fun u d => ?_
    refine (pay7_apply _ _ u d).trans ?_
    refine (congrArg (· + _) (readrow1 a3.view _ _ _ _ 0 d)).trans ?_
    exact zero_add _
  · refine piece_ok (incr x0 x1) 0 (by decide) _ _ fun u d => ?_
    refine (pay6_apply _ _ u d).trans ?_
    refine (congrArg (· + _) (readrow0 a3.view _ _ 0 d)).trans ?_
    exact zero_add _

/-- Image t's two blocks, at their literal type. -/
abbrev xblk (c : Dev nD) (t : Fin cfg0.N) : Vec Ideal S1x256x4096 .f32 := iblk0 V c 0 t
abbrev yblk (c : Dev nD) (t : Fin cfg0.N) : Vec Ideal S1x256x4096 .f32 := iblk0 V c 1 t

/-- What image s adds to entry j of the table (nothing past the last image). -/
def contrib (c : Dev nD) (s : ℕ) (j : S5x256.Idx) : EReal :=
  if hs : s < cfg0.N then incr (xblk V c ⟨s, hs⟩) (yblk V c ⟨s, hs⟩) j else 0

/-- At an image of the grid the contribution is that image's. -/
theorem contrib_of_lt (c : Dev nD) (s : ℕ) (hs : s < cfg0.N) (j : S5x256.Idx) :
    contrib V c s j = incr (xblk V c ⟨s, hs⟩) (yblk V c ⟨s, hs⟩) j := by
  unfold contrib
  exact dif_pos hs

/-- After image n the table holds the sum of the contributions of images 0 … n: the first image stores its own
    over the zero table, every later one adds its own to what the image before left. -/
theorem outsAt_eq (c : Dev nD) (k : Fin 5) (ch : Fin 256) : ∀ (n : ℕ) (h : n < cfg0.N),
    outsAt0 V c n h (ix2 k ch) = ∑ s ∈ Finset.range (n + 1), contrib V c s (ix2 k ch)
  | 0, h => by
    rw [Finset.sum_range_one]
    refine (congrFun (outsAt0_A V c ⟨0, h⟩ rfl) (ix2 k ch)).trans ?_
    refine (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_0 ⟨0, h⟩).mpr rfl) (xblk V c ⟨0, h⟩) (yblk V c ⟨0, h⟩) k ch).trans ?_
    exact (contrib_of_lt V c 0 h (ix2 k ch)).symm
  | n + 1, h => by
    have hN : cfg0.N = 32 := N_0
    have hB : ¬(⟨n + 1, h⟩ : Fin cfg0.N).val % 32 = 0 := by dsimp only; omega
    refine (congrFun (outsAt0_B V c ⟨n + 1, h⟩ hB) (ix2 k ch)).trans ?_
    refine (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hB ((hcond0_0 ⟨n + 1, h⟩).mp hh)) (xblk V c ⟨n + 1, h⟩) (yblk V c ⟨n + 1, h⟩)
      (outsAt0 V c n (Nat.lt_of_succ_lt h)) k ch).trans ?_
    rw [Finset.sum_range_succ, outsAt_eq c k ch n (Nat.lt_of_succ_lt h)]
    exact congrArg (_ + ·) (contrib_of_lt V c (n + 1) h (ix2 k ch)).symm

/-- The index maps, decided over the grid: image t's blocks sit at block index (t, 0, 0) of the two sample arrays. -/
theorem index0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- The same for the second array. -/
theorem index0_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Entry (0, ch, p) of image t's block of the real parts is entry (t, ch, p) of the array. -/
theorem xblk_apply (c : Dev nD) (t : Fin cfg0.N) (ht : t.val < 32) (ch : Fin 256) (p : Fin 4096) :
    xblk V c t (ix3 (0 : Fin 1) ch p) = rd S32x256x4096 (V c main_v0) (ix3 (⟨t.val, ht⟩ : Fin 32) ch p) := by
  unfold xblk iblk0
  rw [View.read_apply]
  show V c main_v0 _ = V c main_v0 _
  refine congrArg (V c main_v0) ?_
  funext a
  apply Fin.ext
  match a with
  | ⟨0, _⟩ =>
    show win0_0.index t 0 * 1 + 1 * 0 = t.val
    rw [(index0_0 t).1]; omega
  | ⟨1, _⟩ =>
    show win0_0.index t 1 * 256 + 1 * ch.val = ch.val
    rw [(index0_0 t).2.1]; omega
  | ⟨2, _⟩ =>
    show win0_0.index t 2 * 4096 + 1 * p.val = p.val
    rw [(index0_0 t).2.2]; omega

/-- The same for the imaginary parts. -/
theorem yblk_apply (c : Dev nD) (t : Fin cfg0.N) (ht : t.val < 32) (ch : Fin 256) (p : Fin 4096) :
    yblk V c t (ix3 (0 : Fin 1) ch p) = rd S32x256x4096 (V c main_v1) (ix3 (⟨t.val, ht⟩ : Fin 32) ch p) := by
  unfold yblk iblk0
  rw [View.read_apply]
  show V c main_v1 _ = V c main_v1 _
  refine congrArg (V c main_v1) ?_
  funext a
  apply Fin.ext
  match a with
  | ⟨0, _⟩ =>
    show win0_1.index t 0 * 1 + 1 * 0 = t.val
    rw [(index0_1 t).1]; omega
  | ⟨1, _⟩ =>
    show win0_1.index t 1 * 256 + 1 * ch.val = ch.val
    rw [(index0_1 t).2.1]; omega
  | ⟨2, _⟩ =>
    show win0_1.index t 2 * 4096 + 1 * p.val = p.val
    rw [(index0_1 t).2.2]; omega

/-- That contribution at (k, ch), written out. -/
theorem incr_apply (x0 x1 : Vec Ideal S1x256x4096 .f32) (k : Fin 5) (ch : Fin 256) :
    incr x0 x1 (ix2 k ch) = ∑ p : Fin 4096, stat k (x0 (ix3 (0 : Fin 1) ch p)) (x1 (ix3 (0 : Fin 1) ch p)) := rfl

/-- The grid has 32 points, so 31 is one. -/
theorem t31_lt : 31 < cfg0.N := lt_of_lt_of_eq (by decide) N_0.symm

/-- The last image's point, the only one after which the table is written back. -/
abbrev t31 : Fin cfg0.N := ⟨31, t31_lt⟩

/-- The table after the last image, as contents of the result array. -/
abbrev tableAfter (c : Dev nD) : Buf (Elt Ideal) ((c : Thread nD τ).loc main_v2) := outsAt0 V c 31 t31_lt

/-- The table's one block sits at block index (0, 0) and has the array's own extents. -/
theorem index0_2 : win0_2.index t31 0 = 0 ∧ win0_2.index t31 1 = 0 := by decide +kernel
/-- Its extents at that point: 5 and 256. -/
theorem xsize0_2 : win0_2.xsize (grid0.coords t31) 0 = 5 ∧ win0_2.xsize (grid0.coords t31) 1 = 256 := by decide +kernel

/-- What is written back is the table after the last image: the one flushing point is image 31, and its block, read
    through zero offsets, is the whole array. -/
theorem flushed_eq (c : Dev nD) (t : Fin cfg0.N) (hf : (cfg0.win 2).flush t = true) :
    (dat0 V c).flushed 2 t = ((cfg0.win 2).blk t).view.read (Elt Ideal) (tableAfter V c) := by
  have hN : cfg0.N = 32 := N_0
  obtain rfl : t = t31 := Fin.ext (by
    have h1 := (flush0_2 t).mp hf
    have h2 := t.isLt
    show t.val = 31
    omega)
  show (cfg0.win 2).cut (grid0.coords t31) ((dat0 V c).after 2 t31) = _
  rw [after0_2]
  funext j
  rw [View.read_apply]
  show outsAt0 V c 31 t31_lt _ = outsAt0 V c 31 t31_lt _
  refine congrArg (outsAt0 V c 31 t31_lt) ?_
  funext a
  apply Fin.ext
  match a with
  | ⟨0, _⟩ =>
    show (j 0).val = win0_2.index t31 0 * 5 + 1 * (j 0).val
    rw [index0_2.1]; omega
  | ⟨1, _⟩ =>
    show (j 1).val = win0_2.index t31 1 * 256 + 1 * (j 1).val
    rw [index0_2.2]; omega

/-- Every entry of the table lies in that block. -/
theorem mem_blk (k : Fin 5) (ch : Fin 256) : ix2 k ch ∈ ((cfg0.win 2).blk t31).view.set := by
  show ix2 k ch ∈ ((View.whole main_v2).slice (win0_2.rect t31)).set
  rw [View.set_slice_whole, Rect.mem_set_unit]
  intro a
  match a with
  | ⟨0, _⟩ =>
    show win0_2.index t31 0 * 5 ≤ k.val ∧ k.val < win0_2.index t31 0 * 5 + win0_2.xsize (grid0.coords t31) 0
    rw [index0_2.1, xsize0_2.1]; omega
  | ⟨1, _⟩ =>
    show win0_2.index t31 1 * 256 ≤ ch.val ∧ ch.val < win0_2.index t31 1 * 256 + win0_2.xsize (grid0.coords t31) 1
    rw [index0_2.2, xsize0_2.2]; omega

/-- After the pass, entry (k, ch) of the table is the sum over the 32 images and 4096 positions of statistic k of
    channel ch's samples. -/
theorem stats_arr (c : Dev nD) (k : Fin 5) (ch : Fin 256) :
    (dat0 V c).arrAt 2 cfg0.N (ix2 k ch)
      = ∑ b : Fin 32, ∑ p : Fin 4096, stat k (rd S32x256x4096 (V c main_v0) (ix3 b ch p)) (rd S32x256x4096 (V c main_v1) (ix3 b ch p)) := by
  refine ((dat0 V c).arrAt_apply_of_mem 2 (tableAfter V c) (flushed_eq V c) cfg0.N t31 (ix2 k ch) t31.isLt
    ((flush0_2 t31).mpr rfl) (mem_blk k ch)).trans ?_
  refine (outsAt_eq V c k ch 31 t31_lt).trans ?_
  show ∑ s ∈ Finset.range 32, contrib V c s (ix2 k ch) = _
  rw [Finset.sum_range]
  refine Finset.sum_congr rfl fun b _ => ?_
  have hb : b.val < cfg0.N := lt_of_lt_of_eq b.isLt N_0.symm
  rw [contrib_of_lt V c b.val hb, incr_apply]
  refine Finset.sum_congr rfl fun p _ => ?_
  exact congrArg₂ (stat k) (xblk_apply V c ⟨b.val, hb⟩ b.isLt ch p) (yblk_apply V c ⟨b.val, hb⟩ b.isLt ch p)

end Cert.KernelIdeal.Stats

end
-- ==== Proof.KTransform.lean ====
/-
  The transform pass.  For image b, channel ch and position p it writes two numbers, rows 0 and 1 of the output:
  row r is  A_r0[ch] · (a − μa[ch]) + A_r1[ch] · (b' − μb[ch]) + β_r[ch],  where a, b' are the sample's real and
  imaginary parts and the eight per-channel coefficients are read from 256 × 1 columns.
-/
import proofs.«138593_j27676769255584_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«138593_j27676769255584_1_alg».proof.Proof.Rd

noncomputable section

open Idealize.ShloMosaic Idealize.ShloMosaic.TcCoe Idealize.SL.Sem Idealize.ShloMosaic.ValueIdx
open Idealize.ShloMosaic.Pipeline (Dat)

namespace Cert.KernelIdeal.Transform

open Cert.KernelIdeal Cert.KernelIdeal.Gen Cert.BN

variable (V : (c : Dev nD) → (b : Ref sig .tc) → Buf (Elt Ideal) ((c : Thread nD τ).loc b))

/-- A column of per-channel numbers spread along the lanes reads, at (p, q), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An [a, b] array viewed as [1, 1, a, b] reads, at (u, w, i, j), the operand at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-- The real parts of the samples, -/
abbrev xr (c : Dev nD) : S32x256x4096.Idx → EReal := V c main_v0
/-- their imaginary parts, -/
abbrev xi (c : Dev nD) : S32x256x4096.Idx → EReal := V c main_v1
/-- the per-channel means of the two parts, -/
abbrev mur (c : Dev nD) : S256x1.Idx → EReal := V c main_v75
abbrev mui (c : Dev nD) : S256x1.Idx → EReal := V c main_v76
/-- the four entries of the per-channel 2 × 2 matrix, -/
abbrev a00 (c : Dev nD) : S256x1.Idx → EReal := V c main_v77
abbrev a01 (c : Dev nD) : S256x1.Idx → EReal := V c main_v78
abbrev a10 (c : Dev nD) : S256x1.Idx → EReal := V c main_v79
abbrev a11 (c : Dev nD) : S256x1.Idx → EReal := V c main_v80
/-- and the two per-channel offsets. -/
abbrev b0 (c : Dev nD) : S256x1.Idx → EReal := V c main_v81
abbrev b1 (c : Dev nD) : S256x1.Idx → EReal := V c main_v82

/-- The result at row k, image b, channel ch, position p, as one expression of the inputs. -/
def Gat (c : Dev nD) (k : Fin 2) (b : Fin 32) (ch : Fin 256) (p : Fin 4096) : EReal :=
  if k.val = 0 then
    a00 V c (ix2 ch (0 : Fin 1)) * (xr V c (ix3 b ch p) - mur V c (ix2 ch (0 : Fin 1)))
      + a01 V c (ix2 ch (0 : Fin 1)) * (xi V c (ix3 b ch p) - mui V c (ix2 ch (0 : Fin 1)))
      + b0 V c (ix2 ch (0 : Fin 1))
  else
    a10 V c (ix2 ch (0 : Fin 1)) * (xr V c (ix3 b ch p) - mur V c (ix2 ch (0 : Fin 1)))
      + a11 V c (ix2 ch (0 : Fin 1)) * (xi V c (ix3 b ch p) - mui V c (ix2 ch (0 : Fin 1)))
      + b1 V c (ix2 ch (0 : Fin 1))

/-- The whole result array as one function of the inputs. -/
def G (c : Dev nD) : S2x32x256x4096.Idx → EReal := fun i => Gat V c (i 0) (i 1) (i 2) (i 3)

theorem G_ix4 (c : Dev nD) (k : Fin 2) (b : Fin 32) (ch : Fin 256) (p : Fin 4096) :
    G V c (ix4 k b ch p) = Gat V c k b ch p := rfl

/-- The zero offsets of a whole-block access, at rank 2 and at rank 3. -/
theorem origin2 : (![0, 0] : Fin 2 → Nat) = fun _ => 0 := funext fun a => by fin_cases a <;> rfl
theorem origin3 : (![0, 0, 0] : Fin 3 → Nat) = fun _ => 0 := funext fun a => by fin_cases a <;> rfl

/-- Row 0 of a block at (u, w, p, q), from the two sample blocks and the seven columns it reads. -/
theorem row0_apply (x0 x1 : Vec Ideal S1x256x4096 .f32) (m0 m1 A B C : Vec Ideal S256x1 .f32) (u w : Fin 1) (p : Fin 256) (q : Fin 4096) :
    (k1_pay4 x0 x1 m0 m1 A B C (ix4 u w p q) : EReal)
      = (A (ix2 p (0 : Fin 1)) : EReal) * ((x0 (ix3 (0 : Fin 1) p q) : EReal) - (m0 (ix2 p (0 : Fin 1)) : EReal))
        + (B (ix2 p (0 : Fin 1)) : EReal) * ((x1 (ix3 (0 : Fin 1) p q) : EReal) - (m1 (ix2 p (0 : Fin 1)) : EReal))
        + (C (ix2 p (0 : Fin 1)) : EReal) := by
  unfold k1_pay4 k1_pay2 k1_pay3
  simp only [shapeCast_ab_11ab_apply, addf_apply, mulf_apply, subf_apply, broadcastTo_a1_ab_apply, shapeCast_self, shapeCast_1ab_ab_apply]

/-- Row 1 of a block at (u, w, p, q). -/
theorem row1_apply (x0 x1 : Vec Ideal S1x256x4096 .f32) (m0 m1 A B C : Vec Ideal S256x1 .f32) (u w : Fin 1) (p : Fin 256) (q : Fin 4096) :
    (k1_pay1 (k1_pay3 x1 m1) (k1_pay5 x0 m0 A) (k1_pay6 B) C (ix4 u w p q) : EReal)
      = (A (ix2 p (0 : Fin 1)) : EReal) * ((x0 (ix3 (0 : Fin 1) p q) : EReal) - (m0 (ix2 p (0 : Fin 1)) : EReal))
        + (B (ix2 p (0 : Fin 1)) : EReal) * ((x1 (ix3 (0 : Fin 1) p q) : EReal) - (m1 (ix2 p (0 : Fin 1)) : EReal))
        + (C (ix2 p (0 : Fin 1)) : EReal) := by
  unfold k1_pay1 k1_pay5 k1_pay6 k1_pay2 k1_pay3
  simp only [shapeCast_ab_11ab_apply, addf_apply, mulf_apply, subf_apply, broadcastTo_a1_ab_apply, shapeCast_self, shapeCast_1ab_ab_apply]

/-- The grid point as an image number. -/
def img (t : Fin cfg1.N) : Fin 32 := ⟨t.val, Nat.lt_of_lt_of_eq t.isLt (show cfg1.N = 32 from N_1)⟩

/-- The block indices, decided over the grid: a sample block and the output block sit at the grid point on the image
    axis and at 0 elsewhere; -/
theorem idx_samples : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_10.index t (0 : Fin 4) = 0 ∧ win1_10.index t (1 : Fin 4) = t.val ∧ win1_10.index t (2 : Fin 4) = 0 ∧ win1_10.index t (3 : Fin 4) = 0 :=
  (by decide +kernel : ∀ t : Fin grid1.N, _)

/-- every column's block is the column itself. -/
theorem idx_columns : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The real-part block of point t is image t of the real parts. -/
theorem blk_xr (c : Dev nD) (t : Fin cfg1.N) (p : Fin 256) (q : Fin 4096) :
    (iblk1 V c 0 t : Vec Ideal S1x256x4096 .f32) (ix3 (0 : Fin 1) p q) = xr V c (ix3 (img t) p q) := by
  obtain ⟨e0, e1, e2, -⟩ := idx_samples t
  unfold iblk1
  rw [View.read_apply]
  show V c main_v0 _ = V c main_v0 _
  congr 1
  funext a; apply Fin.ext
  match a with
  | ⟨0, _⟩ => show win1_0.index t (0 : Fin 3) * 1 + 1 * 0 = t.val; omega
  | ⟨1, _⟩ => show win1_0.index t (1 : Fin 3) * 256 + 1 * p.val = p.val; omega
  | ⟨2, _⟩ => show win1_0.index t (2 : Fin 3) * 4096 + 1 * q.val = q.val; omega

/-- The imaginary-part block of point t is image t of the imaginary parts. -/
theorem blk_xi (c : Dev nD) (t : Fin cfg1.N) (p : Fin 256) (q : Fin 4096) :
    (iblk1 V c 1 t : Vec Ideal S1x256x4096 .f32) (ix3 (0 : Fin 1) p q) = xi V c (ix3 (img t) p q) := by
  obtain ⟨-, -, -, e0, e1, e2, -⟩ := idx_samples t
  unfold iblk1
  rw [View.read_apply]
  show V c main_v1 _ = V c main_v1 _
  congr 1
  funext a; apply Fin.ext
  match a with
  | ⟨0, _⟩ => show win1_1.index t (0 : Fin 3) * 1 + 1 * 0 = t.val; omega
  | ⟨1, _⟩ => show win1_1.index t (1 : Fin 3) * 256 + 1 * p.val = p.val; omega
  | ⟨2, _⟩ => show win1_1.index t (2 : Fin 3) * 4096 + 1 * q.val = q.val; omega

/-! Each column's block is the column: entry p of the block is entry p of the array. -/

theorem blk_mur (c : Dev nD) (t : Fin cfg1.N) (p : Fin 256) :
    (iblk1 V c 2 t : Vec Ideal S256x1 .f32) (ix2 p (0 : Fin 1)) = mur V c (ix2 p (0 : Fin 1)) := by
  obtain ⟨e0, e1, -⟩ := idx_columns t
  unfold iblk1
  rw [View.read_apply]
  show V c main_v75 _ = V c main_v75 _
  congr 1
  funext a; apply Fin.ext
  match a with
  | ⟨0, _⟩ => show win1_2.index t (0 : Fin 2) * 256 + 1 * p.val = p.val; omega
  | ⟨1, _⟩ => show win1_2.index t (1 : Fin 2) * 1 + 1 * 0 = 0; omega

theorem blk_mui (c : Dev nD) (t : Fin cfg1.N) (p : Fin 256) :
    (iblk1 V c 3 t : Vec Ideal S256x1 .f32) (ix2 p (0 : Fin 1)) = mui V c (ix2 p (0 : Fin 1)) := by
  obtain ⟨-, -, e0, e1, -⟩ := idx_columns t
  unfold iblk1
  rw [View.read_apply]
  show V c main_v76 _ = V c main_v76 _
  congr 1
  funext a; apply Fin.ext
  match a with
  | ⟨0, _⟩ => show win1_3.index t (0 : Fin 2) * 256 + 1 * p.val = p.val; omega
  | ⟨1, _⟩ => show win1_3.index t (1 : Fin 2) * 1 + 1 * 0 = 0; omega

theorem blk_a00 (c : Dev nD) (t : Fin cfg1.N) (p : Fin 256) :
    (iblk1 V c 4 t : Vec Ideal S256x1 .f32) (ix2 p (0 : Fin 1)) = a00 V c (ix2 p (0 : Fin 1)) := by
  obtain ⟨-, -, -, -, e0, e1, -⟩ := idx_columns t
  unfold iblk1
  rw [View.read_apply]
  show V c main_v77 _ = V c main_v77 _
  congr 1
  funext a; apply Fin.ext
  match a with
  | ⟨0, _⟩ => show win1_4.index t (0 : Fin 2) * 256 + 1 * p.val = p.val; omega
  | ⟨1, _⟩ => show win1_4.index t (1 : Fin 2) * 1 + 1 * 0 = 0; omega

theorem blk_a01 (c : Dev nD) (t : Fin cfg1.N) (p : Fin 256) :
    (iblk1 V c 5 t : Vec Ideal S256x1 .f32) (ix2 p (0 : Fin 1)) = a01 V c (ix2 p (0 : Fin 1)) := by
  obtain ⟨-, -, -, -, -, -, e0, e1, -⟩ := idx_columns t
  unfold iblk1
  rw [View.read_apply]
  show V c main_v78 _ = V c main_v78 _
  congr 1
  funext a; apply Fin.ext
  match a with
  | ⟨0, _⟩ => show win1_5.index t (0 : Fin 2) * 256 + 1 * p.val = p.val; omega
  | ⟨1, _⟩ => show win1_5.index t (1 : Fin 2) * 1 + 1 * 0 = 0; omega

theorem blk_a10 (c : Dev nD) (t : Fin cfg1.N) (p : Fin 256) :
    (iblk1 V c 6 t : Vec Ideal S256x1 .f32) (ix2 p (0 : Fin 1)) = a10 V c (ix2 p (0 : Fin 1)) := by
  obtain ⟨-, -, -, -, -, -, -, -, e0, e1, -⟩ := idx_columns t
  unfold iblk1
  rw [View.read_apply]
  show V c main_v79 _ = V c main_v79 _
  congr 1
  funext a; apply Fin.ext
  match a with
  | ⟨0, _⟩ => show win1_6.index t (0 : Fin 2) * 256 + 1 * p.val = p.val; omega
  | ⟨1, _⟩ => show win1_6.index t (1 : Fin 2) * 1 + 1 * 0 = 0; omega

theorem blk_a11 (c : Dev nD) (t : Fin cfg1.N) (p : Fin 256) :
    (iblk1 V c 7 t : Vec Ideal S256x1 .f32) (ix2 p (0 : Fin 1)) = a11 V c (ix2 p (0 : Fin 1)) := by
  obtain ⟨-, -, -, -, -, -, -, -, -, -, e0, e1, -⟩ := idx_columns t
  unfold iblk1
  rw [View.read_apply]
  show V c main_v80 _ = V c main_v80 _
  congr 1
  funext a; apply Fin.ext
  match a with
  | ⟨0, _⟩ => show win1_7.index t (0 : Fin 2) * 256 + 1 * p.val = p.val; omega
  | ⟨1, _⟩ => show win1_7.index t (1 : Fin 2) * 1 + 1 * 0 = 0; omega

theorem blk_b0 (c : Dev nD) (t : Fin cfg1.N) (p : Fin 256) :
    (iblk1 V c 8 t : Vec Ideal S256x1 .f32) (ix2 p (0 : Fin 1)) = b0 V c (ix2 p (0 : Fin 1)) := by
  obtain ⟨-, -, -, -, -, -, -, -, -, -, -, -, e0, e1, -⟩ := idx_columns t
  unfold iblk1
  rw [View.read_apply]
  show V c main_v81 _ = V c main_v81 _
  congr 1
  funext a; apply Fin.ext
  match a with
  | ⟨0, _⟩ => show win1_8.index t (0 : Fin 2) * 256 + 1 * p.val = p.val; omega
  | ⟨1, _⟩ => show win1_8.index t (1 : Fin 2) * 1 + 1 * 0 = 0; omega

theorem blk_b1 (c : Dev nD) (t : Fin cfg1.N) (p : Fin 256) :
    (iblk1 V c 9 t : Vec Ideal S256x1 .f32) (ix2 p (0 : Fin 1)) = b1 V c (ix2 p (0 : Fin 1)) := by
  obtain ⟨-, -, -, -, -, -, -, -, -, -, -, -, -, -, e0, e1⟩ := idx_columns t
  unfold iblk1
  rw [View.read_apply]
  show V c main_v82 _ = V c main_v82 _
  congr 1
  funext a; apply Fin.ext
  match a with
  | ⟨0, _⟩ => show win1_9.index t (0 : Fin 2) * 256 + 1 * p.val = p.val; omega
  | ⟨1, _⟩ => show win1_9.index t (1 : Fin 2) * 1 + 1 * 0 = 0; omega

/-- An element (k, u, p, q) of the output block of point t sits in the result at (k, image t, p, q). -/
theorem emb_out (t : Fin cfg1.N) (k : Fin 2) (u : Fin 1) (p : Fin 256) (q : Fin 4096) :
    ((cfg1.win 10).blk t).view.emb (ix4 k u p q) = ix4 k (img t) p q := by
  obtain ⟨-, -, -, -, -, -, e0, e1, e2, e3⟩ := idx_samples t
  have hu : u.val = 0 := by omega
  funext a; apply Fin.ext
  match a with
  | ⟨0, _⟩ => show win1_10.index t (0 : Fin 4) * 2 + 1 * k.val = k.val; omega
  | ⟨1, _⟩ => show win1_10.index t (1 : Fin 4) * 1 + 1 * u.val = t.val; omega
  | ⟨2, _⟩ => show win1_10.index t (2 : Fin 4) * 256 + 1 * p.val = p.val; omega
  | ⟨3, _⟩ => show win1_10.index t (3 : Fin 4) * 4096 + 1 * q.val = q.val; omega

/-- Row 1 of the staging buffer is the second store's rectangle, -/
theorem emb_row1 (u : Fin 1) (p : Fin 256) (q : Fin 4096) :
    r1_3.emb (ix4 (0 : Fin 1) u p q) = ix4 (1 : Fin 2) u p q := by
  funext a; apply Fin.ext
  match a with
  | ⟨0, _⟩ => rfl
  | ⟨1, _⟩ => show 0 + 1 * u.val = u.val; omega
  | ⟨2, _⟩ => show 0 + 1 * p.val = p.val; omega
  | ⟨3, _⟩ => show 0 + 1 * q.val = q.val; omega

/-- row 0 the first store's, -/
theorem emb_row0 (u : Fin 1) (p : Fin 256) (q : Fin 4096) :
    r1_2.emb (ix4 (0 : Fin 1) u p q) = ix4 (0 : Fin 2) u p q := by
  funext a; apply Fin.ext
  match a with
  | ⟨0, _⟩ => rfl
  | ⟨1, _⟩ => show 0 + 1 * u.val = u.val; omega
  | ⟨2, _⟩ => show 0 + 1 * p.val = p.val; omega
  | ⟨3, _⟩ => show 0 + 1 * q.val = q.val; omega

/-- and row 0 is outside the second store's rectangle. -/
theorem row0_not_mem (u : Fin 1) (p : Fin 256) (q : Fin 4096) : ix4 (0 : Fin 2) u p q ∉ r1_3.set := by
  rw [Rect.mem_set_unit]
  intro h
  have h0 : (1 : ℕ) ≤ 0 := (h 0).1
  omega

/-- What the two stores leave in the staging buffer: row 0 holds the first store's payload, -/
theorem canon_row0 (w1 w0 : Vec Ideal S1x1x256x4096 .f32) (u : Fin 1) (p : Fin 256) (q : Fin 4096) :
    View.canon (Val := Elt Ideal) (s := S2x1x256x4096) (e := .f32) [⟨r1_3, w1⟩, ⟨r1_2, w0⟩] (ix4 (0 : Fin 2) u p q)
      = w0 (ix4 (0 : Fin 1) u p q) := by
  rw [View.canon_cons_of_not_mem (⟨r1_3, w1⟩ : View.Piece (Elt Ideal) S2x1x256x4096 .f32) [⟨r1_2, w0⟩] (row0_not_mem u p q),
    ← emb_row0, View.canon_cons_emb]

/-- row 1 the second store's. -/
theorem canon_row1 (w1 w0 : Vec Ideal S1x1x256x4096 .f32) (u : Fin 1) (p : Fin 256) (q : Fin 4096) :
    View.canon (Val := Elt Ideal) (s := S2x1x256x4096) (e := .f32) [⟨r1_3, w1⟩, ⟨r1_2, w0⟩] (ix4 (1 : Fin 2) u p q)
      = w1 (ix4 (0 : Fin 1) u p q) := by
  rw [← emb_row1, View.canon_cons_emb]

/-- WHAT POINT t WRITES BACK is its block of G. -/
theorem flushed_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  unfold out1_10
  simp only [View.ld_unit_zero (S := S1x256x4096) origin3, View.ld_unit_zero (S := S256x1) origin2]
  funext j
  obtain ⟨k, u, p, q, rfl⟩ : ∃ (k : Fin 2) (u : Fin 1) (p : Fin 256) (q : Fin 4096), j = ix4 k u p q := ⟨j 0, j 1, j 2, j 3, eq_ix4 j⟩
  rw [View.read_apply, emb_out, G_ix4]
  match k with
  | ⟨0, _⟩ =>
    show View.canon (Val := Elt Ideal) (s := S2x1x256x4096) (e := .f32) _ (ix4 (0 : Fin 2) u p q) = Gat V c (0 : Fin 2) (img t) p q
    rw [canon_row0, row0_apply,
      blk_a00, blk_xr, blk_mur, blk_a01, blk_xi, blk_mui, blk_b0]
    unfold Gat
    rw [if_pos (show (0 : Fin 2).val = 0 from rfl)]
  | ⟨1, _⟩ =>
    show View.canon (Val := Elt Ideal) (s := S2x1x256x4096) (e := .f32) _ (ix4 (1 : Fin 2) u p q) = Gat V c (1 : Fin 2) (img t) p q
    rw [canon_row1, row1_apply,
      blk_a10, blk_xr, blk_mur, blk_a11, blk_xi, blk_mui, blk_b1]
    unfold Gat
    rw [if_neg (show ¬ ((1 : Fin 2).val = 0) by decide)]

/-- An index of the result is in point t's block iff each coordinate is in the block's range on its axis. -/
theorem mem_blk (t : Fin cfg1.N) (i : S2x32x256x4096.Idx) :
    i ∈ ((cfg1.win 10).blk t).view.set ↔ ∀ a : Fin 4, win1_10.index t a * S2x1x256x4096.size a ≤ (i a).val
      ∧ (i a).val < win1_10.index t a * S2x1x256x4096.size a + S2x1x256x4096.size a := by
  show i ∈ ((View.whole main_v83).slice (win1_10.rect t)).set ↔ _
  rw [View.set_slice_whole, Rect.mem_set_unit]
  exact Iff.rfl

/-- Every index of the result is written back by the point of its image. -/
theorem cover (i : S2x32x256x4096.Idx) :
    ∃ t : Fin cfg1.N, (cfg1.win 10).flush t = true ∧ i ∈ ((cfg1.win 10).blk t).view.set := by
  have h0 : (i 0).val < 2 := (i 0).isLt
  have h1 : (i 1).val < 32 := (i 1).isLt
  have h2 : (i 2).val < 256 := (i 2).isLt
  have h3 : (i 3).val < 4096 := (i 3).isLt
  obtain ⟨t, ht⟩ : ∃ t : Fin cfg1.N, t.val = (i 1).val := ⟨⟨(i 1).val, Nat.lt_of_lt_of_eq h1 (show 32 = cfg1.N from N_1.symm)⟩, rfl⟩
  obtain ⟨-, -, -, -, -, -, e0, e1, e2, e3⟩ := idx_samples t
  refine ⟨t, flush1_10 t, ?_⟩
  rw [mem_blk]
  intro a
  match a with
  | ⟨0, _⟩ => show win1_10.index t (0 : Fin 4) * 2 ≤ (i 0).val ∧ (i 0).val < win1_10.index t (0 : Fin 4) * 2 + 2; omega
  | ⟨1, _⟩ => show win1_10.index t (1 : Fin 4) * 1 ≤ (i 1).val ∧ (i 1).val < win1_10.index t (1 : Fin 4) * 1 + 1; omega
  | ⟨2, _⟩ => show win1_10.index t (2 : Fin 4) * 256 ≤ (i 2).val ∧ (i 2).val < win1_10.index t (2 : Fin 4) * 256 + 256; omega
  | ⟨3, _⟩ => show win1_10.index t (3 : Fin 4) * 4096 ≤ (i 3).val ∧ (i 3).val < win1_10.index t (3 : Fin 4) * 4096 + 4096; omega

/-- THE RESULT after the region: G of the inputs as the region finds them. -/
theorem final (c : Dev nD) : (dat1 V c).arrAt 10 cfg1.N = G V c :=
  (dat1 V c).arrAt_eq_of_cover 10 (G V c) (fun t _ => flushed_eq V c t) cover

/-- Row 0 of the result at (b, ch, p). -/
theorem out_arr0 (c : Dev nD) (b : Fin 32) (ch : Fin 256) (p : Fin 4096) :
    (dat1 V c).arrAt 10 cfg1.N (ix4 (0 : Fin 2) b ch p)
      = rd S256x1 (V c main_v77) (ix2 ch (0 : Fin 1)) * (rd S32x256x4096 (V c main_v0) (ix3 b ch p) - rd S256x1 (V c main_v75) (ix2 ch (0 : Fin 1)))
        + rd S256x1 (V c main_v78) (ix2 ch (0 : Fin 1)) * (rd S32x256x4096 (V c main_v1) (ix3 b ch p) - rd S256x1 (V c main_v76) (ix2 ch (0 : Fin 1)))
        + rd S256x1 (V c main_v81) (ix2 ch (0 : Fin 1)) := by
  rw [final]
  show Gat V c (0 : Fin 2) b ch p = _
  unfold Gat
  rw [if_pos (show (0 : Fin 2).val = 0 from rfl)]

/-- Row 1 of the result at (b, ch, p). -/
theorem out_arr1 (c : Dev nD) (b : Fin 32) (ch : Fin 256) (p : Fin 4096) :
    (dat1 V c).arrAt 10 cfg1.N (ix4 (1 : Fin 2) b ch p)
      = rd S256x1 (V c main_v79) (ix2 ch (0 : Fin 1)) * (rd S32x256x4096 (V c main_v0) (ix3 b ch p) - rd S256x1 (V c main_v75) (ix2 ch (0 : Fin 1)))
        + rd S256x1 (V c main_v80) (ix2 ch (0 : Fin 1)) * (rd S32x256x4096 (V c main_v1) (ix3 b ch p) - rd S256x1 (V c main_v76) (ix2 ch (0 : Fin 1)))
        + rd S256x1 (V c main_v82) (ix2 ch (0 : Fin 1)) := by
  rw [final]
  show Gat V c (1 : Fin 2) b ch p = _
  unfold Gat
  rw [if_neg (show ¬ ((1 : Fin 2).val = 0) by decide)]

end Cert.KernelIdeal.Transform

end
-- ==== Proof.Spec.lean ====
/-
  Complex batch normalisation, one channel at a time, on the extended reals.

  For one channel the data are two finite families of numbers, the real parts a and the imaginary parts b of the
  N = 32 · 64 · 64 = 131072 samples, a 2 × 2 affine weight and a bias.  Both programs whiten each sample by the inverse
  square root of the channel's 2 × 2 covariance matrix [[Vrr, Vri], [Vri, Vii]] (ε added on the diagonal), written in
  closed form through s = √det and t = √(trace + 2 s), and then apply one row (wa, wb | bb) of the affine map.

  The two programs differ in two places only.
  * The covariance: one takes the raw second moments, Vrr = Σa²/N − μ² + ε; the other centres first,
    Vrr = Σ(a − μ)²/N + ε.  Over the reals these agree because Σ(a − μ)² = Σa² − N μ².
  * The order of the two linear maps: one applies the whitening matrix R to the centred sample and then the weight row,
    wa · (Rrr dr + Rri di) + wb · (Rri dr + Rii di); the other folds the row into the matrix first,
    (wa Rrr + wb Rri) · dr + (wa Rri + wb Rii) · di.  This is distributivity, which on the extended reals needs every
    factor finite; the entries of R are finite because det ≥ ε² > 0 (Cauchy–Schwarz for the centred families).
-/
import Idealize.ShloMosaic.PureOps.Ideal

noncomputable section

namespace Cert.BN

open Idealize.ShloMosaic

/-- The number of samples of a channel, 131072 = 2¹⁷, as the programs' literal. -/
abbrev cN : EReal := Ideal.ofBits .f32 0x48000000#32
/-- The regulariser ε (the single-precision number nearest 10⁻⁵). -/
abbrev cEps : EReal := Ideal.ofBits .f32 0x3727C5AC#32
/-- The literal 2. -/
abbrev cTwo : EReal := Ideal.ofBits .f32 0x40000000#32
/-- The literal 1. -/
abbrev cOne : EReal := Ideal.ofBits .f32 0x3F800000#32

/-- s = √(Vrr Vii − Vri²), the square root of the covariance's determinant. -/
def sDet (Vrr Vii Vri : EReal) : EReal := Ideal.sqrt (Vrr * Vii - Vri * Vri)
/-- 1 / (s t) with t = √(Vrr + Vii + 2 s). -/
def invST (Vrr Vii Vri : EReal) : EReal :=
  Ideal.div cOne (sDet Vrr Vii Vri * Ideal.sqrt (Vrr + Vii + cTwo * sDet Vrr Vii Vri))
/-- The entries of the inverse square root of the covariance matrix. -/
def Rrr (Vrr Vii Vri : EReal) : EReal := (Vii + sDet Vrr Vii Vri) * invST Vrr Vii Vri
def Rii (Vrr Vii Vri : EReal) : EReal := (Vrr + sDet Vrr Vii Vri) * invST Vrr Vii Vri
def Rri (Vrr Vii Vri : EReal) : EReal := (-Vri) * invST Vrr Vii Vri

/-- The mean from the sum. -/
def mean (S : EReal) : EReal := Ideal.div S cN

/-- A variance from raw moments: Σa²/N − μ² + ε. -/
def varRaw (Saa Sa : EReal) : EReal := Ideal.div Saa cN - mean Sa * mean Sa + cEps
/-- The covariance from raw moments: Σab/N − μa μb. -/
def covRaw (Sab Sa Sb : EReal) : EReal := Ideal.div Sab cN - mean Sa * mean Sb

/-- The folded coefficient of the centred real part: wa Rrr + wb Rri. -/
def coefR (Vrr Vii Vri wa wb : EReal) : EReal := wa * Rrr Vrr Vii Vri + wb * Rri Vrr Vii Vri
/-- The folded coefficient of the centred imaginary part: wa Rri + wb Rii. -/
def coefI (Vrr Vii Vri wa wb : EReal) : EReal := wa * Rri Vrr Vii Vri + wb * Rii Vrr Vii Vri

/-- One output entry with the affine row folded into the whitening matrix, from raw moments
    (Sr = Σa, Si = Σb, Srr = Σa², Sii = Σb², Sri = Σab), the row (wa, wb | bb) and the sample (xr, xi). -/
def outFolded (Sr Si Srr Sii Sri wa wb bb xr xi : EReal) : EReal :=
  coefR (varRaw Srr Sr) (varRaw Sii Si) (covRaw Sri Sr Si) wa wb * (xr - mean Sr)
    + coefI (varRaw Srr Sr) (varRaw Sii Si) (covRaw Sri Sr Si) wa wb * (xi - mean Si) + bb

/-- One output entry with the whitening applied first, from centred moments
    (Drr = Σ(a−μa)², Dii = Σ(b−μb)², Dri = Σ(a−μa)(b−μb)). -/
def outCentred (Sr Si Drr Dii Dri wa wb bb xr xi : EReal) : EReal :=
  wa * (Rrr (Ideal.div Drr cN + cEps) (Ideal.div Dii cN + cEps) (Ideal.div Dri cN) * (xr - mean Sr)
          + Rri (Ideal.div Drr cN + cEps) (Ideal.div Dii cN + cEps) (Ideal.div Dri cN) * (xi - mean Si))
    + wb * (Rri (Ideal.div Drr cN + cEps) (Ideal.div Dii cN + cEps) (Ideal.div Dri cN) * (xr - mean Sr)
          + Rii (Ideal.div Drr cN + cEps) (Ideal.div Dii cN + cEps) (Ideal.div Dri cN) * (xi - mean Si)) + bb

end Cert.BN

end
-- ==== Proof.KHost.lean ====
/-
  The host arithmetic between the two passes, read at a channel.  From the 5 × 256 table of sums it forms, per channel,
  the two means, the raw-moment covariance entries, the entries of the covariance's inverse square root and, with the
  weight rows, the four folded coefficients; the bias rows are passed on.  Each of the eight results is a 256 × 1
  column.  Before the first pass the two arguments are viewed as [32, 256, 4096]; after the second the result is viewed
  as [2, 32, 256, 64, 64].
-/
import proofs.«138593_j27676769255584_1_alg».proof.Proof.Gen.KernelIdeal.Frame
import proofs.«138593_j27676769255584_1_alg».proof.Proof.Spec
import proofs.«138593_j27676769255584_1_alg».proof.Proof.Rd
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.StableHlo

namespace Cert.KernelIdeal.HostVal

open Cert.KernelIdeal Cert.KernelIdeal.Gen Cert.BN

variable (U : Valuation τ sig (Elt Ideal))

/-! ## Reading the layout operations at an index -/

section Read
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A rank-3 array cut along its first two axes from `(o0, o1)` reads, at `(i, j, e)`, the source at `(k0, k1, e)`
    with `k0 = o0 + i` and `k1 = o1 + j`. -/
theorem slice3_axes01_apply {n0 n1 n2 m0 m1 : Nat} (o0 o1 : Nat) (X : (⟨3, ![n0, n1, n2]⟩ : Shape).Idx → α)
    (h : (⟨3, ![n0, n1, n2]⟩ : Shape).Slices ![o0, o1, 0] ⟨3, ![m0, m1, n2]⟩) (i : Fin m0) (j : Fin m1) (e : Fin n2)
    (k0 : Fin n0) (k1 : Fin n1) (h0 : k0.val = o0 + i.val) (h1 : k1.val = o1 + j.val) :
    extractStridedSlice ⟨3, ![m0, m1, n2]⟩ ![o0, o1, 0] X h (ix3 i j e) = X (ix3 k0 k1 e) :=
  extractStridedSlice_apply _ _ _ _ _ (fun ax => by
    match ax with
    | ⟨0, _⟩ => exact h0
    | ⟨1, _⟩ => exact h1
    | ⟨2, _⟩ => exact (Nat.zero_add _).symm)

end Read

/-! ## The host arithmetic as whole vectors

The table of sums `T`, the weight `Wt` and the bias `Bs` enter through row slices viewed as vectors of length 256;
every later stage is a pointwise operation on such vectors. -/

section Vec

/-- The literals, broadcast to vectors. -/
def kN : FVec Ideal S256 .f32 := broadcastInDim S256 ![] bcast_S_S256 (constant S_ .f32 0x48000000#32)
def kEps : FVec Ideal S256 .f32 := broadcastInDim S256 ![] bcast_S_S256 (constant S_ .f32 0x3727C5AC#32)
def kTwo : FVec Ideal S256 .f32 := broadcastInDim S256 ![] bcast_S_S256 (constant S_ .f32 0x40000000#32)
def kOne : FVec Ideal S256 .f32 := broadcastInDim S256 ![] bcast_S_S256 (constant S_ .f32 0x3F800000#32)

variable (T : FVec Ideal S5x256 .f32) (Wt : FVec Ideal S2x2x256 .f32) (Bs : FVec Ideal S2x256 .f32)

/-- The five rows of the table of sums. -/
def row0 : FVec Ideal S256 .f32 := shapeCast S256 (extractStridedSlice S1x256 ![0, 0] T slices_S5x256_S1x256_0_0) shapeCasts_S1x256_S256
def row1 : FVec Ideal S256 .f32 := shapeCast S256 (extractStridedSlice S1x256 ![1, 0] T slices_S5x256_S1x256_1_0) shapeCasts_S1x256_S256
def row2 : FVec Ideal S256 .f32 := shapeCast S256 (extractStridedSlice S1x256 ![2, 0] T slices_S5x256_S1x256_2_0) shapeCasts_S1x256_S256
def row3 : FVec Ideal S256 .f32 := shapeCast S256 (extractStridedSlice S1x256 ![3, 0] T slices_S5x256_S1x256_3_0) shapeCasts_S1x256_S256
def row4 : FVec Ideal S256 .f32 := shapeCast S256 (extractStridedSlice S1x256 ![4, 0] T slices_S5x256_S1x256_4_0) shapeCasts_S1x256_S256

/-- The four rows of the weight and the two of the bias. -/
def w00 : FVec Ideal S256 .f32 := shapeCast S256 (extractStridedSlice S1x1x256 ![0, 0, 0] Wt slices_S2x2x256_S1x1x256_0_0_0) shapeCasts_S1x1x256_S256
def w01 : FVec Ideal S256 .f32 := shapeCast S256 (extractStridedSlice S1x1x256 ![0, 1, 0] Wt slices_S2x2x256_S1x1x256_0_1_0) shapeCasts_S1x1x256_S256
def w10 : FVec Ideal S256 .f32 := shapeCast S256 (extractStridedSlice S1x1x256 ![1, 0, 0] Wt slices_S2x2x256_S1x1x256_1_0_0) shapeCasts_S1x1x256_S256
def w11 : FVec Ideal S256 .f32 := shapeCast S256 (extractStridedSlice S1x1x256 ![1, 1, 0] Wt slices_S2x2x256_S1x1x256_1_1_0) shapeCasts_S1x1x256_S256
def bRow0 : FVec Ideal S256 .f32 := shapeCast S256 (extractStridedSlice S1x256 ![0, 0] Bs slices_S2x256_S1x256_0_0) shapeCasts_S1x256_S256
def bRow1 : FVec Ideal S256 .f32 := shapeCast S256 (extractStridedSlice S1x256 ![1, 0] Bs slices_S2x256_S1x256_1_0) shapeCasts_S1x256_S256

/-- The two means. -/
def vMr : FVec Ideal S256 .f32 := Host.divf (row0 T) kN
def vMi : FVec Ideal S256 .f32 := Host.divf (row1 T) kN
/-- The raw-moment covariance entries. -/
def vVrr : FVec Ideal S256 .f32 := addf (subf (Host.divf (row2 T) kN) (mulf (vMr T) (vMr T))) kEps
def vVii : FVec Ideal S256 .f32 := addf (subf (Host.divf (row3 T) kN) (mulf (vMi T) (vMi T))) kEps
def vVri : FVec Ideal S256 .f32 := subf (Host.divf (row4 T) kN) (mulf (vMr T) (vMi T))
/-- s, 1 / (s t) and the entries of the inverse square root. -/
def vS : FVec Ideal S256 .f32 := Host.sqrt (subf (mulf (vVrr T) (vVii T)) (mulf (vVri T) (vVri T)))
def vInv : FVec Ideal S256 .f32 :=
  Host.divf kOne (mulf (vS T) (Host.sqrt (addf (addf (vVrr T) (vVii T)) (mulf kTwo (vS T)))))
def vRrr : FVec Ideal S256 .f32 := mulf (addf (vVii T) (vS T)) (vInv T)
def vRii : FVec Ideal S256 .f32 := mulf (addf (vVrr T) (vS T)) (vInv T)
def vRri : FVec Ideal S256 .f32 := mulf (Host.negf (vVri T)) (vInv T)
/-- The four folded coefficients. -/
def vA00 : FVec Ideal S256 .f32 := addf (mulf (w00 Wt) (vRrr T)) (mulf (w01 Wt) (vRri T))
def vA01 : FVec Ideal S256 .f32 := addf (mulf (w00 Wt) (vRri T)) (mulf (w01 Wt) (vRii T))
def vA10 : FVec Ideal S256 .f32 := addf (mulf (w10 Wt) (vRrr T)) (mulf (w11 Wt) (vRri T))
def vA11 : FVec Ideal S256 .f32 := addf (mulf (w10 Wt) (vRri T)) (mulf (w11 Wt) (vRii T))

/-! ### The vectors read at a channel -/

theorem kN_apply (i : S256.Idx) : kN i = cN := rfl
theorem kEps_apply (i : S256.Idx) : kEps i = cEps := rfl
theorem kTwo_apply (i : S256.Idx) : kTwo i = cTwo := rfl
theorem kOne_apply (i : S256.Idx) : kOne i = cOne := rfl

theorem row0_apply (ch : Fin 256) : row0 T (ix1 ch) = T (ix2 (0 : Fin 5) ch) :=
  (shapeCast_1a_a_apply _ _ ch).trans (slice2_axis0_apply 0 T _ 0 ch 0 rfl)
theorem row1_apply (ch : Fin 256) : row1 T (ix1 ch) = T (ix2 (1 : Fin 5) ch) :=
  (shapeCast_1a_a_apply _ _ ch).trans (slice2_axis0_apply 1 T _ 0 ch 1 rfl)
theorem row2_apply (ch : Fin 256) : row2 T (ix1 ch) = T (ix2 (2 : Fin 5) ch) :=
  (shapeCast_1a_a_apply _ _ ch).trans (slice2_axis0_apply 2 T _ 0 ch 2 rfl)
theorem row3_apply (ch : Fin 256) : row3 T (ix1 ch) = T (ix2 (3 : Fin 5) ch) :=
  (shapeCast_1a_a_apply _ _ ch).trans (slice2_axis0_apply 3 T _ 0 ch 3 rfl)
theorem row4_apply (ch : Fin 256) : row4 T (ix1 ch) = T (ix2 (4 : Fin 5) ch) :=
  (shapeCast_1a_a_apply _ _ ch).trans (slice2_axis0_apply 4 T _ 0 ch 4 rfl)
theorem bRow0_apply (ch : Fin 256) : bRow0 Bs (ix1 ch) = Bs (ix2 (0 : Fin 2) ch) :=
  (shapeCast_1a_a_apply _ _ ch).trans (slice2_axis0_apply 0 Bs _ 0 ch 0 rfl)
theorem bRow1_apply (ch : Fin 256) : bRow1 Bs (ix1 ch) = Bs (ix2 (1 : Fin 2) ch) :=
  (shapeCast_1a_a_apply _ _ ch).trans (slice2_axis0_apply 1 Bs _ 0 ch 1 rfl)
theorem w00_apply (ch : Fin 256) : w00 Wt (ix1 ch) = Wt (ix3 (0 : Fin 2) (0 : Fin 2) ch) :=
  (shapeCast_11a_a_apply _ _ ch).trans (slice3_axes01_apply 0 0 Wt _ 0 0 ch 0 0 rfl rfl)
theorem w01_apply (ch : Fin 256) : w01 Wt (ix1 ch) = Wt (ix3 (0 : Fin 2) (1 : Fin 2) ch) :=
  (shapeCast_11a_a_apply _ _ ch).trans (slice3_axes01_apply 0 1 Wt _ 0 0 ch 0 1 rfl rfl)
theorem w10_apply (ch : Fin 256) : w10 Wt (ix1 ch) = Wt (ix3 (1 : Fin 2) (0 : Fin 2) ch) :=
  (shapeCast_11a_a_apply _ _ ch).trans (slice3_axes01_apply 1 0 Wt _ 0 0 ch 1 0 rfl rfl)
theorem w11_apply (ch : Fin 256) : w11 Wt (ix1 ch) = Wt (ix3 (1 : Fin 2) (1 : Fin 2) ch) :=
  (shapeCast_11a_a_apply _ _ ch).trans (slice3_axes01_apply 1 1 Wt _ 0 0 ch 1 1 rfl rfl)

theorem vMr_apply (ch : Fin 256) : vMr T (ix1 ch) = mean (T (ix2 (0 : Fin 5) ch)) := by
  show Ideal.div (row0 T (ix1 ch)) (kN (ix1 ch)) = _
  rw [row0_apply, kN_apply]; rfl
theorem vMi_apply (ch : Fin 256) : vMi T (ix1 ch) = mean (T (ix2 (1 : Fin 5) ch)) := by
  show Ideal.div (row1 T (ix1 ch)) (kN (ix1 ch)) = _
  rw [row1_apply, kN_apply]; rfl
theorem vVrr_apply (ch : Fin 256) :
    vVrr T (ix1 ch) = varRaw (T (ix2 (2 : Fin 5) ch)) (T (ix2 (0 : Fin 5) ch)) := by
  show Ideal.div (row2 T (ix1 ch)) (kN (ix1 ch)) - vMr T (ix1 ch) * vMr T (ix1 ch) + kEps (ix1 ch) = _
  rw [row2_apply, kN_apply, vMr_apply, kEps_apply]; rfl
theorem vVii_apply (ch : Fin 256) :
    vVii T (ix1 ch) = varRaw (T (ix2 (3 : Fin 5) ch)) (T (ix2 (1 : Fin 5) ch)) := by
  show Ideal.div (row3 T (ix1 ch)) (kN (ix1 ch)) - vMi T (ix1 ch) * vMi T (ix1 ch) + kEps (ix1 ch) = _
  rw [row3_apply, kN_apply, vMi_apply, kEps_apply]; rfl
theorem vVri_apply (ch : Fin 256) :
    vVri T (ix1 ch) = covRaw (T (ix2 (4 : Fin 5) ch)) (T (ix2 (0 : Fin 5) ch)) (T (ix2 (1 : Fin 5) ch)) := by
  show Ideal.div (row4 T (ix1 ch)) (kN (ix1 ch)) - vMr T (ix1 ch) * vMi T (ix1 ch) = _
  rw [row4_apply, kN_apply, vMr_apply, vMi_apply]; rfl

/-- The three covariance entries at channel `ch`, named. -/
abbrev eVrr (ch : Fin 256) : EReal := varRaw (T (ix2 (2 : Fin 5) ch)) (T (ix2 (0 : Fin 5) ch))
abbrev eVii (ch : Fin 256) : EReal := varRaw (T (ix2 (3 : Fin 5) ch)) (T (ix2 (1 : Fin 5) ch))
abbrev eVri (ch : Fin 256) : EReal :=
  covRaw (T (ix2 (4 : Fin 5) ch)) (T (ix2 (0 : Fin 5) ch)) (T (ix2 (1 : Fin 5) ch))

theorem vS_apply (ch : Fin 256) : vS T (ix1 ch) = sDet (eVrr T ch) (eVii T ch) (eVri T ch) := by
  show Ideal.sqrt (vVrr T (ix1 ch) * vVii T (ix1 ch) - vVri T (ix1 ch) * vVri T (ix1 ch)) = _
  rw [vVrr_apply, vVii_apply, vVri_apply]; rfl
theorem vInv_apply (ch : Fin 256) : vInv T (ix1 ch) = invST (eVrr T ch) (eVii T ch) (eVri T ch) := by
  show Ideal.div (kOne (ix1 ch)) (vS T (ix1 ch)
    * Ideal.sqrt (vVrr T (ix1 ch) + vVii T (ix1 ch) + kTwo (ix1 ch) * vS T (ix1 ch))) = _
  rw [kOne_apply, kTwo_apply, vS_apply, vVrr_apply, vVii_apply]; rfl
theorem vRrr_apply (ch : Fin 256) : vRrr T (ix1 ch) = Rrr (eVrr T ch) (eVii T ch) (eVri T ch) := by
  show (vVii T (ix1 ch) + vS T (ix1 ch)) * vInv T (ix1 ch) = _
  rw [vVii_apply, vS_apply, vInv_apply]; rfl
theorem vRii_apply (ch : Fin 256) : vRii T (ix1 ch) = Rii (eVrr T ch) (eVii T ch) (eVri T ch) := by
  show (vVrr T (ix1 ch) + vS T (ix1 ch)) * vInv T (ix1 ch) = _
  rw [vVrr_apply, vS_apply, vInv_apply]; rfl
theorem vRri_apply (ch : Fin 256) : vRri T (ix1 ch) = Rri (eVrr T ch) (eVii T ch) (eVri T ch) := by
  show (-(vVri T (ix1 ch))) * vInv T (ix1 ch) = _
  rw [vVri_apply, vInv_apply]; rfl

theorem vA00_apply (ch : Fin 256) : vA00 T Wt (ix1 ch)
    = coefR (eVrr T ch) (eVii T ch) (eVri T ch) (Wt (ix3 (0 : Fin 2) (0 : Fin 2) ch)) (Wt (ix3 (0 : Fin 2) (1 : Fin 2) ch)) := by
  show w00 Wt (ix1 ch) * vRrr T (ix1 ch) + w01 Wt (ix1 ch) * vRri T (ix1 ch) = _
  rw [w00_apply, w01_apply, vRrr_apply, vRri_apply]; rfl
theorem vA01_apply (ch : Fin 256) : vA01 T Wt (ix1 ch)
    = coefI (eVrr T ch) (eVii T ch) (eVri T ch) (Wt (ix3 (0 : Fin 2) (0 : Fin 2) ch)) (Wt (ix3 (0 : Fin 2) (1 : Fin 2) ch)) := by
  show w00 Wt (ix1 ch) * vRri T (ix1 ch) + w01 Wt (ix1 ch) * vRii T (ix1 ch) = _
  rw [w00_apply, w01_apply, vRri_apply, vRii_apply]; rfl
theorem vA10_apply (ch : Fin 256) : vA10 T Wt (ix1 ch)
    = coefR (eVrr T ch) (eVii T ch) (eVri T ch) (Wt (ix3 (1 : Fin 2) (0 : Fin 2) ch)) (Wt (ix3 (1 : Fin 2) (1 : Fin 2) ch)) := by
  show w10 Wt (ix1 ch) * vRrr T (ix1 ch) + w11 Wt (ix1 ch) * vRri T (ix1 ch) = _
  rw [w10_apply, w11_apply, vRrr_apply, vRri_apply]; rfl
theorem vA11_apply (ch : Fin 256) : vA11 T Wt (ix1 ch)
    = coefI (eVrr T ch) (eVii T ch) (eVri T ch) (Wt (ix3 (1 : Fin 2) (0 : Fin 2) ch)) (Wt (ix3 (1 : Fin 2) (1 : Fin 2) ch)) := by
  show w10 Wt (ix1 ch) * vRri T (ix1 ch) + w11 Wt (ix1 ch) * vRii T (ix1 ch) = _
  rw [w10_apply, w11_apply, vRri_apply, vRii_apply]; rfl

end Vec

/-! ## The middle stretch's eight results as whole columns: each is a vector of the section above, viewed as 256 × 1 -/

set_option maxHeartbeats 4000000 in
theorem col_v75 : after hostOps1 U (Proc.devRef .tc main_v75) = shapeCast S256x1 (vMr (U (Proc.devRef .tc main_v2))) shapeCasts_S256_S256x1 := by
  after_results_simp; rfl
set_option maxHeartbeats 4000000 in
theorem col_v76 : after hostOps1 U (Proc.devRef .tc main_v76) = shapeCast S256x1 (vMi (U (Proc.devRef .tc main_v2))) shapeCasts_S256_S256x1 := by
  after_results_simp; rfl
set_option maxHeartbeats 4000000 in
theorem col_v77 : after hostOps1 U (Proc.devRef .tc main_v77) = shapeCast S256x1 (vA00 (U (Proc.devRef .tc main_v2)) (U (Proc.devRef .tc main_arg2))) shapeCasts_S256_S256x1 := by
  after_results_simp; rfl
set_option maxHeartbeats 4000000 in
theorem col_v78 : after hostOps1 U (Proc.devRef .tc main_v78) = shapeCast S256x1 (vA01 (U (Proc.devRef .tc main_v2)) (U (Proc.devRef .tc main_arg2))) shapeCasts_S256_S256x1 := by
  after_results_simp; rfl
set_option maxHeartbeats 4000000 in
theorem col_v79 : after hostOps1 U (Proc.devRef .tc main_v79) = shapeCast S256x1 (vA10 (U (Proc.devRef .tc main_v2)) (U (Proc.devRef .tc main_arg2))) shapeCasts_S256_S256x1 := by
  after_results_simp; rfl
set_option maxHeartbeats 4000000 in
theorem col_v80 : after hostOps1 U (Proc.devRef .tc main_v80) = shapeCast S256x1 (vA11 (U (Proc.devRef .tc main_v2)) (U (Proc.devRef .tc main_arg2))) shapeCasts_S256_S256x1 := by
  after_results_simp; rfl
set_option maxHeartbeats 4000000 in
theorem col_v81 : after hostOps1 U (Proc.devRef .tc main_v81) = shapeCast S256x1 (bRow0 (U (Proc.devRef .tc main_arg3))) shapeCasts_S256_S256x1 := by
  after_results_simp; rfl
set_option maxHeartbeats 4000000 in
theorem col_v82 : after hostOps1 U (Proc.devRef .tc main_v82) = shapeCast S256x1 (bRow1 (U (Proc.devRef .tc main_arg3))) shapeCasts_S256_S256x1 := by
  after_results_simp; rfl

/-! ## The eight coefficient columns at channel `ch`, from the table of sums and the weight and bias arrays -/

theorem mean_r_col (ch : Fin 256) : rd S256x1 (after hostOps1 U (Proc.devRef .tc main_v75)) (ix2 ch (0 : Fin 1)) = mean (rd S5x256 (U (Proc.devRef .tc main_v2)) (ix2 (0 : Fin 5) ch)) := by
  refine (congrFun (col_v75 U) (ix2 ch (0 : Fin 1))).trans ?_
  exact (shapeCast_a_a1_apply _ _ ch 0).trans (vMr_apply _ ch)

theorem mean_i_col (ch : Fin 256) : rd S256x1 (after hostOps1 U (Proc.devRef .tc main_v76)) (ix2 ch (0 : Fin 1)) = mean (rd S5x256 (U (Proc.devRef .tc main_v2)) (ix2 (1 : Fin 5) ch)) := by
  refine (congrFun (col_v76 U) (ix2 ch (0 : Fin 1))).trans ?_
  exact (shapeCast_a_a1_apply _ _ ch 0).trans (vMi_apply _ ch)

theorem a00_col (ch : Fin 256) : rd S256x1 (after hostOps1 U (Proc.devRef .tc main_v77)) (ix2 ch (0 : Fin 1))
    = coefR (varRaw (rd S5x256 (U (Proc.devRef .tc main_v2)) (ix2 (2 : Fin 5) ch)) (rd S5x256 (U (Proc.devRef .tc main_v2)) (ix2 (0 : Fin 5) ch))) (varRaw (rd S5x256 (U (Proc.devRef .tc main_v2)) (ix2 (3 : Fin 5) ch)) (rd S5x256 (U (Proc.devRef .tc main_v2)) (ix2 (1 : Fin 5) ch))) (covRaw (rd S5x256 (U (Proc.devRef .tc main_v2)) (ix2 (4 : Fin 5) ch)) (rd S5x256 (U (Proc.devRef .tc main_v2)) (ix2 (0 : Fin 5) ch)) (rd S5x256 (U (Proc.devRef .tc main_v2)) (ix2 (1 : Fin 5) ch)))
        (rd S2x2x256 (U (Proc.devRef .tc main_arg2)) (ix3 (0 : Fin 2) (0 : Fin 2) ch)) (rd S2x2x256 (U (Proc.devRef .tc main_arg2)) (ix3 (0 : Fin 2) (1 : Fin 2) ch)) := by
  refine (congrFun (col_v77 U) (ix2 ch (0 : Fin 1))).trans ?_
  exact (shapeCast_a_a1_apply _ _ ch 0).trans (vA00_apply _ _ ch)

theorem a01_col (ch : Fin 256) : rd S256x1 (after hostOps1 U (Proc.devRef .tc main_v78)) (ix2 ch (0 : Fin 1))
    = coefI (varRaw (rd S5x256 (U (Proc.devRef .tc main_v2)) (ix2 (2 : Fin 5) ch)) (rd S5x256 (U (Proc.devRef .tc main_v2)) (ix2 (0 : Fin 5) ch))) (varRaw (rd S5x256 (U (Proc.devRef .tc main_v2)) (ix2 (3 : Fin 5) ch)) (rd S5x256 (U (Proc.devRef .tc main_v2)) (ix2 (1 : Fin 5) ch))) (covRaw (rd S5x256 (U (Proc.devRef .tc main_v2)) (ix2 (4 : Fin 5) ch)) (rd S5x256 (U (Proc.devRef .tc main_v2)) (ix2 (0 : Fin 5) ch)) (rd S5x256 (U (Proc.devRef .tc main_v2)) (ix2 (1 : Fin 5) ch)))
        (rd S2x2x256 (U (Proc.devRef .tc main_arg2)) (ix3 (0 : Fin 2) (0 : Fin 2) ch)) (rd S2x2x256 (U (Proc.devRef .tc main_arg2)) (ix3 (0 : Fin 2) (1 : Fin 2) ch)) := by
  refine (congrFun (col_v78 U) (ix2 ch (0 : Fin 1))).trans ?_
  exact (shapeCast_a_a1_apply _ _ ch 0).trans (vA01_apply _ _ ch)

theorem a10_col (ch : Fin 256) : rd S256x1 (after hostOps1 U (Proc.devRef .tc main_v79)) (ix2 ch (0 : Fin 1))
    = coefR (varRaw (rd S5x256 (U (Proc.devRef .tc main_v2)) (ix2 (2 : Fin 5) ch)) (rd S5x256 (U (Proc.devRef .tc main_v2)) (ix2 (0 : Fin 5) ch))) (varRaw (rd S5x256 (U (Proc.devRef .tc main_v2)) (ix2 (3 : Fin 5) ch)) (rd S5x256 (U (Proc.devRef .tc main_v2)) (ix2 (1 : Fin 5) ch))) (covRaw (rd S5x256 (U (Proc.devRef .tc main_v2)) (ix2 (4 : Fin 5) ch)) (rd S5x256 (U (Proc.devRef .tc main_v2)) (ix2 (0 : Fin 5) ch)) (rd S5x256 (U (Proc.devRef .tc main_v2)) (ix2 (1 : Fin 5) ch)))
        (rd S2x2x256 (U (Proc.devRef .tc main_arg2)) (ix3 (1 : Fin 2) (0 : Fin 2) ch)) (rd S2x2x256 (U (Proc.devRef .tc main_arg2)) (ix3 (1 : Fin 2) (1 : Fin 2) ch)) := by
  refine (congrFun (col_v79 U) (ix2 ch (0 : Fin 1))).trans ?_
  exact (shapeCast_a_a1_apply _ _ ch 0).trans (vA10_apply _ _ ch)

theorem a11_col (ch : Fin 256) : rd S256x1 (after hostOps1 U (Proc.devRef .tc main_v80)) (ix2 ch (0 : Fin 1))
    = coefI (varRaw (rd S5x256 (U (Proc.devRef .tc main_v2)) (ix2 (2 : Fin 5) ch)) (rd S5x256 (U (Proc.devRef .tc main_v2)) (ix2 (0 : Fin 5) ch))) (varRaw (rd S5x256 (U (Proc.devRef .tc main_v2)) (ix2 (3 : Fin 5) ch)) (rd S5x256 (U (Proc.devRef .tc main_v2)) (ix2 (1 : Fin 5) ch))) (covRaw (rd S5x256 (U (Proc.devRef .tc main_v2)) (ix2 (4 : Fin 5) ch)) (rd S5x256 (U (Proc.devRef .tc main_v2)) (ix2 (0 : Fin 5) ch)) (rd S5x256 (U (Proc.devRef .tc main_v2)) (ix2 (1 : Fin 5) ch)))
        (rd S2x2x256 (U (Proc.devRef .tc main_arg2)) (ix3 (1 : Fin 2) (0 : Fin 2) ch)) (rd S2x2x256 (U (Proc.devRef .tc main_arg2)) (ix3 (1 : Fin 2) (1 : Fin 2) ch)) := by
  refine (congrFun (col_v80 U) (ix2 ch (0 : Fin 1))).trans ?_
  exact (shapeCast_a_a1_apply _ _ ch 0).trans (vA11_apply _ _ ch)

theorem b0_col (ch : Fin 256) : rd S256x1 (after hostOps1 U (Proc.devRef .tc main_v81)) (ix2 ch (0 : Fin 1)) = (rd S2x256 (U (Proc.devRef .tc main_arg3)) (ix2 (0 : Fin 2) ch)) := by
  refine (congrFun (col_v81 U) (ix2 ch (0 : Fin 1))).trans ?_
  exact (shapeCast_a_a1_apply _ _ ch 0).trans (bRow0_apply _ ch)

theorem b1_col (ch : Fin 256) : rd S256x1 (after hostOps1 U (Proc.devRef .tc main_v82)) (ix2 ch (0 : Fin 1)) = (rd S2x256 (U (Proc.devRef .tc main_arg3)) (ix2 (1 : Fin 2) ch)) := by
  refine (congrFun (col_v82 U) (ix2 ch (0 : Fin 1))).trans ?_
  exact (shapeCast_a_a1_apply _ _ ch 0).trans (bRow1_apply _ ch)

/-! ## What the stretches leave alone, and the two views -/

/-- The middle stretch does not write the two viewed arguments. -/
theorem mid_keeps_v0 : after hostOps1 U (Proc.devRef .tc main_v0) = U (Proc.devRef .tc main_v0) := by
  after_results_simp
theorem mid_keeps_v1 : after hostOps1 U (Proc.devRef .tc main_v1) = U (Proc.devRef .tc main_v1) := by
  after_results_simp

/-- The first stretch views each of the first two arguments as [32, 256, 4096]: entry (b, ch, p) is the argument's
    entry (b, ch, p / 64, p % 64). -/
theorem first_v0 (b : Fin 32) (ch : Fin 256) (h w : Fin 64) :
    rd S32x256x4096 (after hostOps0 U (Proc.devRef .tc main_v0)) (ix3 b ch (⟨64 * h.val + w.val, by omega⟩ : Fin 4096))
      = rd S32x256x64x64 (U (Proc.devRef .tc main_arg0)) (ix4 b ch h w) := by
  have e : after hostOps0 U (Proc.devRef .tc main_v0) = shapeCast S32x256x4096 (U (Proc.devRef .tc main_arg0)) shapeCasts_S32x256x64x64_S32x256x4096 := by
    after_results; rfl
  refine (congrFun e _).trans ?_
  exact shapeCast_apply (s := S32x256x64x64) (t := S32x256x4096) _ _ _ (ix4 b ch h w) (by
    rw [Shape.rowMajor_val_four, Shape.rowMajor_val_three]
    show ((b.val * 256 + ch.val) * 64 + h.val) * 64 + w.val = (b.val * 256 + ch.val) * 4096 + (64 * h.val + w.val)
    omega)
theorem first_v1 (b : Fin 32) (ch : Fin 256) (h w : Fin 64) :
    rd S32x256x4096 (after hostOps0 U (Proc.devRef .tc main_v1)) (ix3 b ch (⟨64 * h.val + w.val, by omega⟩ : Fin 4096))
      = rd S32x256x64x64 (U (Proc.devRef .tc main_arg1)) (ix4 b ch h w) := by
  have e : after hostOps0 U (Proc.devRef .tc main_v1) = shapeCast S32x256x4096 (U (Proc.devRef .tc main_arg1)) shapeCasts_S32x256x64x64_S32x256x4096 := by
    after_results; rfl
  refine (congrFun e _).trans ?_
  exact shapeCast_apply (s := S32x256x64x64) (t := S32x256x4096) _ _ _ (ix4 b ch h w) (by
    rw [Shape.rowMajor_val_four, Shape.rowMajor_val_three]
    show ((b.val * 256 + ch.val) * 64 + h.val) * 64 + w.val = (b.val * 256 + ch.val) * 4096 + (64 * h.val + w.val)
    omega)

/-- The first and the middle stretch do not write the weight and the bias. -/
theorem first_keeps_arg2 : after hostOps0 U (Proc.devRef .tc main_arg2) = U (Proc.devRef .tc main_arg2) := by
  after_results
theorem first_keeps_arg3 : after hostOps0 U (Proc.devRef .tc main_arg3) = U (Proc.devRef .tc main_arg3) := by
  after_results

/-- The last stretch views the second pass's result as [2, 32, 256, 64, 64]: entry (k, b, ch, h, w) is the result's
    entry (k, b, ch, 64 h + w). -/
theorem last_v84 (k : Fin 2) (b : Fin 32) (ch : Fin 256) (h w : Fin 64) :
    rd S2x32x256x64x64 (after hostOps2 U (Proc.devRef .tc main_v84)) (ix5 k b ch h w)
      = rd S2x32x256x4096 (U (Proc.devRef .tc main_v83)) (ix4 k b ch (⟨64 * h.val + w.val, by omega⟩ : Fin 4096)) := by
  have e : after hostOps2 U (Proc.devRef .tc main_v84) = shapeCast S2x32x256x64x64 (U (Proc.devRef .tc main_v83)) shapeCasts_S2x32x256x4096_S2x32x256x64x64 := by
    after_results; rfl
  refine (congrFun e _).trans ?_
  exact shapeCast_apply (s := S2x32x256x4096) (t := S2x32x256x64x64) _ _ _ (ix4 k b ch (⟨64 * h.val + w.val, by omega⟩ : Fin 4096)) (by
    rw [Shape.rowMajor_val_four, Shape.rowMajor_val_five]
    show ((k.val * 32 + b.val) * 256 + ch.val) * 4096 + (64 * h.val + w.val)
      = ((((k.val * 32 + b.val) * 256 + ch.val) * 64 + h.val) * 64 + w.val)
    omega)

end Cert.KernelIdeal.HostVal

end
-- ==== Proof.SpecArr.lean ====
/-
  Complex batch normalisation on whole arrays.  X and Y are the real and imaginary parts, indexed by
  (image, channel, row, column); W is the 2 × 2 × 256 affine weight and B the 2 × 256 bias.  The result has a leading
  axis of length two: entry (r, b, ch, h, w) is row r of the affine map applied to the whitened sample (b, ch, h, w).
  Both arrangements of Spec.lean are lifted to arrays through the per-channel sums over images, rows and columns.
-/
import proofs.«138593_j27676769255584_1_alg».proof.Proof.Spec
import Idealize.ShloMosaic.Lib.ValueIdx

noncomputable section

namespace Cert.BN

open Idealize.ShloMosaic Idealize.ShloMosaic.ValueIdx

abbrev SX : Shape := ⟨4, ![32, 256, 64, 64]⟩
abbrev SW : Shape := ⟨3, ![2, 2, 256]⟩
abbrev SB : Shape := ⟨2, ![2, 256]⟩
abbrev SO : Shape := ⟨5, ![2, 32, 256, 64, 64]⟩

/-- The sum of an array's entries of one channel, over images, rows and columns. -/
def chanSum (f : SX.Idx → EReal) (ch : Fin 256) : EReal :=
  ∑ b : Fin 32, ∑ h : Fin 64, ∑ w : Fin 64, f (ix4 b ch h w)

/-- The array with its channel's mean subtracted from every entry. -/
def centred (X : SX.Idx → EReal) : SX.Idx → EReal := fun j => X j - mean (chanSum X (j 1))

/-- The result with the affine row folded into the whitening matrix, from raw moments. -/
def foldedOut (X Y : SX.Idx → EReal) (W : SW.Idx → EReal) (B : SB.Idx → EReal) : SO.Idx → EReal := fun i =>
  outFolded (chanSum X (i 2)) (chanSum Y (i 2)) (chanSum (fun j => X j * X j) (i 2)) (chanSum (fun j => Y j * Y j) (i 2))
    (chanSum (fun j => X j * Y j) (i 2))
    (W (ix3 (i 0) (0 : Fin 2) (i 2))) (W (ix3 (i 0) (1 : Fin 2) (i 2))) (B (ix2 (i 0) (i 2)))
    (X (ix4 (i 1) (i 2) (i 3) (i 4))) (Y (ix4 (i 1) (i 2) (i 3) (i 4)))

/-- The result with the whitening applied first, from centred moments. -/
def centredOut (X Y : SX.Idx → EReal) (W : SW.Idx → EReal) (B : SB.Idx → EReal) : SO.Idx → EReal := fun i =>
  outCentred (chanSum X (i 2)) (chanSum Y (i 2))
    (chanSum (fun j => centred X j * centred X j) (i 2)) (chanSum (fun j => centred Y j * centred Y j) (i 2))
    (chanSum (fun j => centred X j * centred Y j) (i 2))
    (W (ix3 (i 0) (0 : Fin 2) (i 2))) (W (ix3 (i 0) (1 : Fin 2) (i 2))) (B (ix2 (i 0) (i 2)))
    (X (ix4 (i 1) (i 2) (i 3) (i 4))) (Y (ix4 (i 1) (i 2) (i 3) (i 4)))

end Cert.BN

end
-- ==== Proof.KValue.lean ====
/-
  The kernel program computes complex batch normalisation with the affine rows folded into the whitening matrix, from
  raw moments: its result array is `Cert.BN.foldedOut` of its four arguments.

  The first pass leaves the table of the five per-channel sums; since the arrays it reads are the arguments viewed
  with rows and columns merged into one axis of length 4096, a sum over that axis is the double sum over rows and
  columns.  The host arithmetic turns the table and the weight into eight coefficient columns, the second pass applies
  them, and the last view splits the merged axis again.
-/
import proofs.«138593_j27676769255584_1_alg».proof.Proof.KRun
import proofs.«138593_j27676769255584_1_alg».proof.Proof.KStats
import proofs.«138593_j27676769255584_1_alg».proof.Proof.KTransform
import proofs.«138593_j27676769255584_1_alg».proof.Proof.KHost
import proofs.«138593_j27676769255584_1_alg».proof.Proof.SpecArr
import Mathlib.Algebra.BigOperators.Fin
import Mathlib.Logic.Equiv.Fin.Basic

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.KValue

open Cert.KernelIdeal Cert.KernelIdeal.Gen Cert.BN Cert.KernelIdeal.HostVal

/-- A sum over the merged axis of length 4096 = 64 · 64 is the double sum over rows and columns. -/
theorem sum_merged (g : Fin 4096 → EReal) :
    ∑ p : Fin 4096, g p = ∑ h : Fin 64, ∑ w : Fin 64, g ⟨64 * h.val + w.val, by omega⟩ := by
  rw [← Fintype.sum_prod_type' (fun (h : Fin 64) (w : Fin 64) => g ⟨64 * h.val + w.val, by omega⟩)]
  refine (Fintype.sum_equiv (finProdFinEquiv (m := 64) (n := 64)) _ _ fun hw => ?_).symm
  refine congrArg g (Fin.ext ?_)
  show 64 * hw.1.val + hw.2.val = hw.2.val + 64 * hw.1.val
  omega

variable (m : (ℓ : Loc nD τ sig) → Buf (Elt Ideal) ℓ) (ρ : Dev nD → PrngReg)

/-- The four arguments as arrays of extended reals. -/
abbrev argX (c : Dev nD) : SX.Idx → EReal := m ((c.tc : Thread nD τ).loc main_arg0)
abbrev argY (c : Dev nD) : SX.Idx → EReal := m ((c.tc : Thread nD τ).loc main_arg1)
abbrev argW (c : Dev nD) : SW.Idx → EReal := m ((c.tc : Thread nD τ).loc main_arg2)
abbrev argB (c : Dev nD) : SB.Idx → EReal := m ((c.tc : Thread nD τ).loc main_arg3)

/-- The first argument viewed as [32, 256, 4096], as the first pass finds it. -/
theorem view_x (c : Dev nD) (b : Fin 32) (ch : Fin 256) (h w : Fin 64) :
    rd S32x256x4096 (V1 m ρ c main_v0) (ix3 b ch (⟨64 * h.val + w.val, by omega⟩ : Fin 4096)) = argX m c (ix4 b ch h w) :=
  first_v0 (W0 m ρ c) b ch h w
theorem view_y (c : Dev nD) (b : Fin 32) (ch : Fin 256) (h w : Fin 64) :
    rd S32x256x4096 (V1 m ρ c main_v1) (ix3 b ch (⟨64 * h.val + w.val, by omega⟩ : Fin 4096)) = argY m c (ix4 b ch h w) :=
  first_v1 (W0 m ρ c) b ch h w

/-- Entry (k, ch) of the table the first pass leaves: the channel's sum of statistic k. -/
theorem table_eq (c : Dev nD) (k : Fin 5) (ch : Fin 256) :
    rd S5x256 (W2 m ρ c (Proc.devRef .tc main_v2)) (ix2 k ch)
      = chanSum (fun j => Stats.stat k (argX m c j) (argY m c j)) ch := by
  have h2 : W2 m ρ c (Proc.devRef .tc main_v2) = (dat0 (V1 m ρ) c).arrAt 2 cfg0.N := W2_arr m ρ c 2
  have key : (∑ b : Fin 32, ∑ p : Fin 4096,
        Stats.stat k (rd S32x256x4096 (V1 m ρ c main_v0) (ix3 b ch p)) (rd S32x256x4096 (V1 m ρ c main_v1) (ix3 b ch p)) : EReal)
      = chanSum (fun j => Stats.stat k (argX m c j) (argY m c j)) ch := by
    unfold chanSum
    refine Finset.sum_congr rfl fun b _ => ?_
    rw [sum_merged]
    refine Finset.sum_congr rfl fun h _ => Finset.sum_congr rfl fun w _ => ?_
    rw [view_x m ρ c b ch h w, view_y m ρ c b ch h w]
  exact (congrFun h2 (ix2 k ch)).trans ((Stats.stats_arr (V1 m ρ) c k ch).trans key)

/-- The two viewed arguments as the second pass finds them: still the arguments' entries. -/
theorem view2_x (c : Dev nD) (b : Fin 32) (ch : Fin 256) (h w : Fin 64) :
    rd S32x256x4096 (V3 m ρ c main_v0) (ix3 b ch (⟨64 * h.val + w.val, by omega⟩ : Fin 4096)) = argX m c (ix4 b ch h w) := by
  have e : V3 m ρ c main_v0 = V1 m ρ c main_v0 := by
    show after hostOps1 (W2 m ρ c) (Proc.devRef .tc main_v0) = _
    rw [mid_keeps_v0]
    exact (W2_arr m ρ c 0).trans (((dat0 (V1 m ρ) c).arrAt_in 0 rfl _).trans (A_eq0 (V1 m ρ) c 0))
  rw [e]; exact view_x m ρ c b ch h w
theorem view2_y (c : Dev nD) (b : Fin 32) (ch : Fin 256) (h w : Fin 64) :
    rd S32x256x4096 (V3 m ρ c main_v1) (ix3 b ch (⟨64 * h.val + w.val, by omega⟩ : Fin 4096)) = argY m c (ix4 b ch h w) := by
  have e : V3 m ρ c main_v1 = V1 m ρ c main_v1 := by
    show after hostOps1 (W2 m ρ c) (Proc.devRef .tc main_v1) = _
    rw [mid_keeps_v1]
    exact (W2_arr m ρ c 1).trans (((dat0 (V1 m ρ) c).arrAt_in 1 rfl _).trans (A_eq0 (V1 m ρ) c 1))
  rw [e]; exact view_y m ρ c b ch h w

/-- The weight and the bias as the middle stretch finds them: the arguments. -/
theorem mid_w (c : Dev nD) : W2 m ρ c (Proc.devRef .tc main_arg2) = argW m c :=
  (W2_of_ne m ρ c main_arg2 (by decide)).trans (first_keeps_arg2 (W0 m ρ c))
theorem mid_b (c : Dev nD) : W2 m ρ c (Proc.devRef .tc main_arg3) = argB m c :=
  (W2_of_ne m ρ c main_arg3 (by decide)).trans (first_keeps_arg3 (W0 m ρ c))

/-- The five sums of channel `ch` in the table, each as the channel's sum of the corresponding array. -/
theorem table_x (c : Dev nD) (ch : Fin 256) :
    rd S5x256 (W2 m ρ c (Proc.devRef .tc main_v2)) (ix2 (0 : Fin 5) ch) = chanSum (argX m c) ch := table_eq m ρ c 0 ch
theorem table_y (c : Dev nD) (ch : Fin 256) :
    rd S5x256 (W2 m ρ c (Proc.devRef .tc main_v2)) (ix2 (1 : Fin 5) ch) = chanSum (argY m c) ch := table_eq m ρ c 1 ch
theorem table_xx (c : Dev nD) (ch : Fin 256) :
    rd S5x256 (W2 m ρ c (Proc.devRef .tc main_v2)) (ix2 (2 : Fin 5) ch) = chanSum (fun j => argX m c j * argX m c j) ch :=
  table_eq m ρ c 2 ch
theorem table_yy (c : Dev nD) (ch : Fin 256) :
    rd S5x256 (W2 m ρ c (Proc.devRef .tc main_v2)) (ix2 (3 : Fin 5) ch) = chanSum (fun j => argY m c j * argY m c j) ch :=
  table_eq m ρ c 3 ch
theorem table_xy (c : Dev nD) (ch : Fin 256) :
    rd S5x256 (W2 m ρ c (Proc.devRef .tc main_v2)) (ix2 (4 : Fin 5) ch) = chanSum (fun j => argX m c j * argY m c j) ch :=
  table_eq m ρ c 4 ch

/-- The second pass's result at (k, b, ch, 64 h + w), the eight columns and the two samples substituted. -/
theorem second_row0 (c : Dev nD) (b : Fin 32) (ch : Fin 256) (h w : Fin 64) :
    rd S2x32x256x4096 (W4 m ρ c (Proc.devRef .tc main_v83)) (ix4 (0 : Fin 2) b ch (⟨64 * h.val + w.val, by omega⟩ : Fin 4096))
      = foldedOut (argX m c) (argY m c) (argW m c) (argB m c) (ix5 (0 : Fin 2) b ch h w) := by
  have h4 : W4 m ρ c (Proc.devRef .tc main_v83) = (dat1 (V3 m ρ) c).arrAt 10 cfg1.N := W4_arr m ρ c 10
  refine Eq.trans (congrFun h4 _) ((Transform.out_arr0 (V3 m ρ) c b ch _).trans ?_)
  have c75 := mean_r_col (W2 m ρ c) ch
  have c76 := mean_i_col (W2 m ρ c) ch
  have c77 := a00_col (W2 m ρ c) ch
  have c78 := a01_col (W2 m ρ c) ch
  have c81 := b0_col (W2 m ρ c) ch
  rw [mid_w m ρ c, table_x, table_y, table_xx, table_yy, table_xy] at c77 c78
  rw [table_x] at c75
  rw [table_y] at c76
  rw [mid_b m ρ c] at c81
  rw [show V3 m ρ c main_v77 = after hostOps1 (W2 m ρ c) (Proc.devRef .tc main_v77) from rfl,
    show V3 m ρ c main_v78 = after hostOps1 (W2 m ρ c) (Proc.devRef .tc main_v78) from rfl,
    show V3 m ρ c main_v75 = after hostOps1 (W2 m ρ c) (Proc.devRef .tc main_v75) from rfl,
    show V3 m ρ c main_v76 = after hostOps1 (W2 m ρ c) (Proc.devRef .tc main_v76) from rfl,
    show V3 m ρ c main_v81 = after hostOps1 (W2 m ρ c) (Proc.devRef .tc main_v81) from rfl,
    c75, c76, c77, c78, c81, view2_x m ρ c b ch h w, view2_y m ρ c b ch h w]
  rfl

theorem second_row1 (c : Dev nD) (b : Fin 32) (ch : Fin 256) (h w : Fin 64) :
    rd S2x32x256x4096 (W4 m ρ c (Proc.devRef .tc main_v83)) (ix4 (1 : Fin 2) b ch (⟨64 * h.val + w.val, by omega⟩ : Fin 4096))
      = foldedOut (argX m c) (argY m c) (argW m c) (argB m c) (ix5 (1 : Fin 2) b ch h w) := by
  have h4 : W4 m ρ c (Proc.devRef .tc main_v83) = (dat1 (V3 m ρ) c).arrAt 10 cfg1.N := W4_arr m ρ c 10
  refine Eq.trans (congrFun h4 _) ((Transform.out_arr1 (V3 m ρ) c b ch _).trans ?_)
  have c75 := mean_r_col (W2 m ρ c) ch
  have c76 := mean_i_col (W2 m ρ c) ch
  have c79 := a10_col (W2 m ρ c) ch
  have c80 := a11_col (W2 m ρ c) ch
  have c82 := b1_col (W2 m ρ c) ch
  rw [mid_w m ρ c, table_x, table_y, table_xx, table_yy, table_xy] at c79 c80
  rw [table_x] at c75
  rw [table_y] at c76
  rw [mid_b m ρ c] at c82
  rw [show V3 m ρ c main_v79 = after hostOps1 (W2 m ρ c) (Proc.devRef .tc main_v79) from rfl,
    show V3 m ρ c main_v80 = after hostOps1 (W2 m ρ c) (Proc.devRef .tc main_v80) from rfl,
    show V3 m ρ c main_v75 = after hostOps1 (W2 m ρ c) (Proc.devRef .tc main_v75) from rfl,
    show V3 m ρ c main_v76 = after hostOps1 (W2 m ρ c) (Proc.devRef .tc main_v76) from rfl,
    show V3 m ρ c main_v82 = after hostOps1 (W2 m ρ c) (Proc.devRef .tc main_v82) from rfl,
    c75, c76, c79, c80, c82, view2_x m ρ c b ch h w, view2_y m ρ c b ch h w]
  rfl

/-- The result array after the run. -/
theorem result_eq (c : Dev nD) :
    W5 m ρ c (Proc.devRef .tc main_v84) = foldedOut (argX m c) (argY m c) (argW m c) (argB m c) := by
  funext i
  obtain ⟨k, b, ch, h, w, rfl⟩ : ∃ (k : Fin 2) (b : Fin 32) (ch : Fin 256) (h w : Fin 64), i = ix5 k b ch h w :=
    ⟨i 0, i 1, i 2, i 3, i 4, eq_ix5 i⟩
  refine Eq.trans (last_v84 (W4 m ρ c) k b ch h w) ?_
  rcases (by omega : k.val = 0 ∨ k.val = 1) with h0 | h1
  · obtain rfl : k = 0 := Fin.ext h0
    exact second_row0 m ρ c b ch h w
  · obtain rfl : k = 1 := Fin.ext h1
    exact second_row1 m ρ c b ch h w

/-- Every weakly fair execution of the kernel program ends with the result array at the folded arrangement of its
    arguments, and the arguments unchanged. -/
theorem run_value : θ_run defs (onTc (τ := τ) (main (F := Ideal))) ⟨m, fun _ => 0, ρ⟩ fun r => ∀ c : Dev nD,
      r.2.mem ((c.tc : Thread nD τ).loc main_v84)
          = foldedOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m ρ c), (h c).2⟩) (RunValue.run_named (F := Ideal) m ρ)

end Cert.KernelIdeal.KValue

end
-- ==== Proof.LibSumIdx.lean ====
/-
  A sum over a rank-4 index set is the fourfold sum over its coordinates: the index set is the product of its four
  coordinate ranges (every index is the index built from its four coordinates).
-/
import Idealize.ShloMosaic.Lib.ValueIdx
import Mathlib.Algebra.BigOperators.Group.Finset.Basic
import Mathlib.Data.Fintype.BigOperators

noncomputable section

open scoped BigOperators

namespace Cert.LibSumIdx

open Idealize.ShloMosaic Idealize.ShloMosaic.ValueIdx

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end Cert.LibSumIdx

end
-- ==== Proof.RefValue.lean ====
/-
  The reference program computes complex batch normalisation with the whitening applied first, from centred moments:
  its result array is `Cert.BN.centredOut` of its four arguments.

  The generated run gives the result array as one composed term of the arguments.  Read at an index (r, b, ch, h, w)
  every operation of that term is either pointwise, or a broadcast of a per-channel vector (which reads the vector at
  ch), or a row of the weight or bias cut out and flattened (which reads the weight at (r, q, ch), the bias at (r, ch)),
  or the sum over images, rows and columns (which at ch is the triple sum `Cert.BN.chanSum`).  Read so, stage by stage,
  the term is the centred arrangement of Spec.lean, operation for operation; no algebra on the extended reals is used.
-/
import proofs.«138593_j27676769255584_1_alg».proof.Proof.Gen.ReferenceIdeal.Run
import proofs.«138593_j27676769255584_1_alg».proof.Proof.SpecArr
import proofs.«138593_j27676769255584_1_alg».proof.Proof.LibSumIdx
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Data.Fintype.BigOperators

noncomputable section

open scoped BigOperators

namespace Cert.ReferenceIdeal.RefValue

open Cert.ReferenceIdeal Cert.ReferenceIdeal.Gen
open Idealize.ShloMosaic Idealize.ShloMosaic.TcCoe Idealize.SL.Sem Idealize.ShloMosaic.ValueIdx

section Lemmas

open Cert.ReferenceIdeal.Value Cert.BN

/-! ## The pointwise host operations at an index -/

theorem hdivf_apply {s : Shape} (x y : FVec Ideal s .f32) (i : s.Idx) : Host.divf x y i = Ideal.div (x i) (y i) := rfl
theorem hsqrt_apply {s : Shape} (x : FVec Ideal s .f32) (i : s.Idx) : Host.sqrt x i = Ideal.sqrt (x i) := rfl
theorem hnegf_apply {s : Shape} (x : FVec Ideal s .f32) (i : s.Idx) : Host.negf x i = -(x i) := rfl

/-- A scalar literal broadcast along the channels reads the literal's value at every channel. -/
theorem bconst_apply (w : BitVec 32) (j : S256.Idx) :
    broadcastInDim S256 ![] bcast_S_S256 (constant (F := Ideal) S_ .f32 w) j = Ideal.ofBits .f32 w := rfl

/-- A per-channel vector broadcast over images, rows and columns reads its channel's entry. -/
theorem bchan_apply (v : FVec Ideal S256 .f32) (b : Fin 32) (ch : Fin 256) (h w : Fin 64) :
    broadcastInDim S32x256x64x64 ![0, 1, 2, 3] bcast_S1x256x1x1_S32x256x64x64_0_1_2_3
      (broadcastInDim S1x256x1x1 ![1] bcast_S256_S1x256x1x1_1 v) (ix4 b ch h w) = v (ix1 ch) := by
  refine (broadcastInDim_apply _ _ _ _ (ix4 (0 : Fin 1) ch (0 : Fin 1) (0 : Fin 1)) (fun a => ?_)).trans ?_
  · match a with
    | ⟨0, _⟩ => rfl
    | ⟨1, _⟩ => rfl
    | ⟨2, _⟩ => rfl
    | ⟨3, _⟩ => rfl
  · exact broadcastInDim_apply _ _ _ _ (ix1 ch) (fun a => by
      match a with
      | ⟨0, _⟩ => rfl)

/-- A row of the weight, cut out and flattened, reads the weight at that row and the channel. -/
theorem wrow_apply (off : Fin 3 → Nat) (r q : Fin 2) (W : SW.Idx → EReal) (hs : S2x2x256.Slices off S1x1x256)
    (h0 : off 0 = r.val) (h1 : off 1 = q.val) (h2 : off 2 = 0) (ch : Fin 256) :
    shapeCast S256 (extractStridedSlice S1x1x256 off W hs) shapeCasts_S1x1x256_S256 (ix1 ch) = W (ix3 r q ch) := by
  refine (shapeCast_apply _ _ _ (ix3 (0 : Fin 1) (0 : Fin 1) ch) ?_).trans ?_
  · rw [Shape.rowMajor_val_three, Shape.rowMajor_val_one]
    show (0 * 1 + 0) * 256 + ch.val = ch.val
    omega
  · exact extractStridedSlice_apply _ _ _ _ _ (fun a => by
      match a with
      | ⟨0, _⟩ => show r.val = off 0 + 0; omega
      | ⟨1, _⟩ => show q.val = off 1 + 0; omega
      | ⟨2, _⟩ => show ch.val = off 2 + ch.val; omega)

/-- A row of the bias, cut out and flattened, reads the bias at that row and the channel. -/
theorem brow_apply (off : Fin 2 → Nat) (r : Fin 2) (B : SB.Idx → EReal) (hs : S2x256.Slices off S1x256)
    (h0 : off 0 = r.val) (h1 : off 1 = 0) (ch : Fin 256) :
    shapeCast S256 (extractStridedSlice S1x256 off B hs) shapeCasts_S1x256_S256 (ix1 ch) = B (ix2 r ch) := by
  refine (shapeCast_1a_a_apply _ _ ch).trans ?_
  exact extractStridedSlice_apply _ _ _ _ _ (fun a => by
      match a with
      | ⟨0, _⟩ => show r.val = off 0 + 0; omega
      | ⟨1, _⟩ => show ch.val = off 1 + ch.val; omega)

/-! ## The sum over images, rows and columns -/

/-- The host's sum over the axes of images, rows and columns, from the zero literal, is the channel's sum. -/
theorem reduce_chan (x : FVec Ideal S32x256x64x64 .f32) (ch : Fin 256) :
    Host.reduceAdd x (constant (F := Ideal) S_ .f32 0x00000000#32) reducesTo_S32x256x64x64_S256_d0_2_3 h_S_ (ix1 ch)
      = chanSum x ch := by
  show Ideal.hostReduceAdd reducesTo_S32x256x64x64_S256_d0_2_3 x (Ideal.ofBits .f32 0x00000000#32) (ix1 ch) = _
  unfold Ideal.hostReduceAdd
  rw [Ideal.ofBits_zero_f32, zero_add]
  have hdrop : ∀ i : S32x256x64x64.Idx, reducesTo_S32x256x64x64_S256_d0_2_3.drop i = ix1 ch ↔ i 1 = ch := by
    intro i
    have hv : (reducesTo_S32x256x64x64_S256_d0_2_3.drop i 0 : Nat) = i 1 :=
      Shape.ReducesTo.drop_apply_val_of_eq reducesTo_S32x256x64x64_S256_d0_2_3 i 0 1
    constructor
    · intro e; rw [e] at hv; exact Fin.ext hv.symm
    · intro e; funext b; have hb : b = 0 := Subsingleton.elim _ _; subst hb; exact Fin.ext (by rw [hv, e])
  rw [Finset.sum_filter, Cert.LibSumIdx.sum_idx4]
  unfold chanSum
  refine Finset.sum_congr rfl (fun b _ => ?_)
  rw [Finset.sum_eq_single ch]
  · refine Finset.sum_congr rfl (fun h _ => Finset.sum_congr rfl (fun w _ => ?_))
    exact if_pos ((hdrop _).2 rfl)
  · intro c _ hc
    refine Finset.sum_eq_zero (fun h _ => Finset.sum_eq_zero (fun w _ => ?_))
    exact if_neg (fun e => hc ((hdrop (ix4 b c h w)).1 e))
  · intro hn; exact absurd (Finset.mem_univ ch) hn

/-! ## The reference's intermediate arrays, one at a time -/

section Stages

variable (V0 : Valuation τ sig (Elt Ideal))

/-- The real parts, the imaginary parts, the weight and the bias among the launch contents. -/
abbrev aX : SX.Idx → EReal := V0 (Proc.devRef .tc main_arg0)
abbrev aY : SX.Idx → EReal := V0 (Proc.devRef .tc main_arg1)
abbrev aW : SW.Idx → EReal := V0 (Proc.devRef .tc main_arg2)
abbrev aB : SB.Idx → EReal := V0 (Proc.devRef .tc main_arg3)

/-- A variance of centred samples with the regulariser, and their covariance. -/
def vrr (X : SX.Idx → EReal) (ch : Fin 256) : EReal := Ideal.div (chanSum (fun j => centred X j * centred X j) ch) cN + cEps
def vri (X Y : SX.Idx → EReal) (ch : Fin 256) : EReal := Ideal.div (chanSum (fun j => centred X j * centred Y j) ch) cN

/-- The centred real parts. -/
theorem v8_eq : res_main_v8 V0 = centred (aX V0) := by
  funext j
  obtain ⟨b, ch, h, w, rfl⟩ : ∃ b ch h w, j = ix4 b ch h w := ⟨j 0, j 1, j 2, j 3, eq_ix4 j⟩
  unfold res_main_v8
  rw [subf_apply, bchan_apply, hdivf_apply, reduce_chan, bconst_apply]
  rfl

/-- The centred imaginary parts. -/
theorem v11_eq : res_main_v11 V0 = centred (aY V0) := by
  funext j
  obtain ⟨b, ch, h, w, rfl⟩ : ∃ b ch h w, j = ix4 b ch h w := ⟨j 0, j 1, j 2, j 3, eq_ix4 j⟩
  unfold res_main_v11
  rw [subf_apply, bchan_apply, hdivf_apply, reduce_chan, bconst_apply]
  rfl

/-- The variance of the real parts. -/
theorem v17_apply (ch : Fin 256) : res_main_v17 V0 (ix1 ch) = vrr (aX V0) ch := by
  unfold res_main_v17
  rw [addf_apply, hdivf_apply, reduce_chan, bconst_apply, bconst_apply, v8_eq]
  rfl

/-- The variance of the imaginary parts. -/
theorem v23_apply (ch : Fin 256) : res_main_v23 V0 (ix1 ch) = vrr (aY V0) ch := by
  unfold res_main_v23
  rw [addf_apply, hdivf_apply, reduce_chan, bconst_apply, bconst_apply, v11_eq]
  rfl

/-- The covariance. -/
theorem v27_apply (ch : Fin 256) : res_main_v27 V0 (ix1 ch) = vri (aX V0) (aY V0) ch := by
  unfold res_main_v27
  rw [hdivf_apply, reduce_chan, bconst_apply, v8_eq, v11_eq]
  rfl

/-- The square root of the determinant. -/
theorem v31_apply (ch : Fin 256) :
    res_main_v31 V0 (ix1 ch) = sDet (vrr (aX V0) ch) (vrr (aY V0) ch) (vri (aX V0) (aY V0) ch) := by
  unfold res_main_v31
  rw [hsqrt_apply, subf_apply, mulf_apply, mulf_apply, v17_apply, v23_apply, v27_apply]
  rfl

/-- The common factor 1 / (s t). -/
theorem v39_apply (ch : Fin 256) :
    res_main_v39 V0 (ix1 ch) = invST (vrr (aX V0) ch) (vrr (aY V0) ch) (vri (aX V0) (aY V0) ch) := by
  unfold res_main_v39
  rw [hdivf_apply, bconst_apply, mulf_apply, hsqrt_apply, addf_apply, addf_apply, mulf_apply, bconst_apply,
    v31_apply, v17_apply, v23_apply]
  rfl

/-- The off-diagonal entry of the whitening matrix. -/
theorem v45_apply (ch : Fin 256) :
    res_main_v45 V0 (ix1 ch) = Rri (vrr (aX V0) ch) (vrr (aY V0) ch) (vri (aX V0) (aY V0) ch) := by
  unfold res_main_v45
  rw [mulf_apply, hnegf_apply, v27_apply, v39_apply]
  rfl

/-- The whitened real parts. -/
theorem v52_apply (b : Fin 32) (ch : Fin 256) (h w : Fin 64) :
    res_main_v52 V0 (ix4 b ch h w)
      = Rrr (vrr (aX V0) ch) (vrr (aY V0) ch) (vri (aX V0) (aY V0) ch) * centred (aX V0) (ix4 b ch h w)
        + Rri (vrr (aX V0) ch) (vrr (aY V0) ch) (vri (aX V0) (aY V0) ch) * centred (aY V0) (ix4 b ch h w) := by
  unfold res_main_v52
  rw [addf_apply, mulf_apply, mulf_apply, bchan_apply, bchan_apply, mulf_apply, addf_apply, v23_apply, v31_apply,
    v39_apply, v45_apply, v8_eq, v11_eq]
  rfl

/-- The whitened imaginary parts. -/
theorem v59_apply (b : Fin 32) (ch : Fin 256) (h w : Fin 64) :
    res_main_v59 V0 (ix4 b ch h w)
      = Rri (vrr (aX V0) ch) (vrr (aY V0) ch) (vri (aX V0) (aY V0) ch) * centred (aX V0) (ix4 b ch h w)
        + Rii (vrr (aX V0) ch) (vrr (aY V0) ch) (vri (aX V0) (aY V0) ch) * centred (aY V0) (ix4 b ch h w) := by
  unfold res_main_v59
  rw [addf_apply, mulf_apply, mulf_apply, bchan_apply, bchan_apply, mulf_apply, addf_apply, v17_apply, v31_apply,
    v39_apply, v45_apply, v8_eq, v11_eq]
  rfl

/-- One row of the affine map applied to the whitened sample: two per-channel coefficients and a per-channel
    offset. -/
theorem row_apply (wa wb bb : FVec Ideal S256 .f32) (b : Fin 32) (ch : Fin 256) (h w : Fin 64) :
    addf (addf (mulf (broadcastInDim S32x256x64x64 ![0, 1, 2, 3] bcast_S1x256x1x1_S32x256x64x64_0_1_2_3
                      (broadcastInDim S1x256x1x1 ![1] bcast_S256_S1x256x1x1_1 wa)) (res_main_v52 V0))
               (mulf (broadcastInDim S32x256x64x64 ![0, 1, 2, 3] bcast_S1x256x1x1_S32x256x64x64_0_1_2_3
                      (broadcastInDim S1x256x1x1 ![1] bcast_S256_S1x256x1x1_1 wb)) (res_main_v59 V0)))
         (broadcastInDim S32x256x64x64 ![0, 1, 2, 3] bcast_S1x256x1x1_S32x256x64x64_0_1_2_3
            (broadcastInDim S1x256x1x1 ![1] bcast_S256_S1x256x1x1_1 bb)) (ix4 b ch h w)
      = wa (ix1 ch) * res_main_v52 V0 (ix4 b ch h w) + wb (ix1 ch) * res_main_v59 V0 (ix4 b ch h w) + bb (ix1 ch) := by
  rw [addf_apply, addf_apply, mulf_apply, mulf_apply, bchan_apply, bchan_apply, bchan_apply]

/-- A rank-4 array given a leading unit axis reads, at (0, b, ch, h, w), its entry (b, ch, h, w). -/
theorem lead_apply (x : FVec Ideal S32x256x64x64 .f32) (u : Fin 1) (b : Fin 32) (ch : Fin 256) (h w : Fin 64) :
    broadcastInDim S1x32x256x64x64 ![1, 2, 3, 4] bcast_S32x256x64x64_S1x32x256x64x64_1_2_3_4 x (ix5 u b ch h w)
      = x (ix4 b ch h w) :=
  broadcastInDim_apply _ _ _ _ (ix4 b ch h w) (fun a => by
    match a with
    | ⟨0, _⟩ => rfl
    | ⟨1, _⟩ => rfl
    | ⟨2, _⟩ => rfl
    | ⟨3, _⟩ => rfl)

/-- The value of the result at row r: the spec's centred arrangement. -/
theorem out_row (r : Fin 2) (b : Fin 32) (ch : Fin 256) (h w : Fin 64) :
    aW V0 (ix3 r (0 : Fin 2) ch) * res_main_v52 V0 (ix4 b ch h w)
        + aW V0 (ix3 r (1 : Fin 2) ch) * res_main_v59 V0 (ix4 b ch h w) + aB V0 (ix2 r ch)
      = centredOut (aX V0) (aY V0) (aW V0) (aB V0) (ix5 r b ch h w) := by
  rw [v52_apply, v59_apply]
  rfl

end Stages

end Lemmas

/-! ## The result array -/

set_option maxRecDepth 8192 in
/-- Every weakly fair execution of the reference ends with the result array at the centred arrangement of its
    arguments, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94)
          = Cert.BN.centredOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩)
    (Cert.ReferenceIdeal.Value.run (F := Ideal) m ρ)
  -- the arguments' launch contents are the memory's arrays at the arguments' locations
  show _ = Cert.BN.centredOut (aX (StableHlo.launchContents m c)) (aY (StableHlo.launchContents m c))
    (aW (StableHlo.launchContents m c)) (aB (StableHlo.launchContents m c))
  generalize StableHlo.launchContents m c = V0
  -- read both sides at an index (r, b, ch, h, w); the row r picks the piece of the concatenation
  funext i
  obtain ⟨k, b, ch, h, w, rfl⟩ : ∃ k b ch h w, i = ix5 k b ch h w := ⟨i 0, i 1, i 2, i 3, i 4, eq_ix5 i⟩
  match k with
  | ⟨0, _⟩ =>
    refine (concatenate_pair_apply_left (t := S2x32x256x64x64) (s₁ := S1x32x256x64x64) (s₂ := S1x32x256x64x64)
      0 _ _ _ _ rfl (ix5 (0 : Fin 1) b ch h w) (fun a => ?_)).trans ?_
    · match a with
      | ⟨0, _⟩ => rfl
      | ⟨1, _⟩ => rfl
      | ⟨2, _⟩ => rfl
      | ⟨3, _⟩ => rfl
      | ⟨4, _⟩ => rfl
    · rw [lead_apply, row_apply, wrow_apply ![0, 0, 0] 0 0 _ _ rfl rfl rfl, wrow_apply ![0, 1, 0] 0 1 _ _ rfl rfl rfl,
        brow_apply ![0, 0] 0 _ _ rfl rfl]
      exact out_row V0 0 b ch h w
  | ⟨1, _⟩ =>
    refine (concatenate_pair_apply_right (t := S2x32x256x64x64) (s₁ := S1x32x256x64x64) (s₂ := S1x32x256x64x64)
      0 _ _ _ _ rfl rfl (ix5 (0 : Fin 1) b ch h w) (fun a ha => ?_) ?_).trans ?_
    · match a with
      | ⟨0, _⟩ => exact absurd rfl ha
      | ⟨1, _⟩ => rfl
      | ⟨2, _⟩ => rfl
      | ⟨3, _⟩ => rfl
      | ⟨4, _⟩ => rfl
    · rfl
    · rw [lead_apply, row_apply, wrow_apply ![1, 0, 0] 1 0 _ _ rfl rfl rfl, wrow_apply ![1, 1, 0] 1 1 _ _ rfl rfl rfl,
        brow_apply ![1, 0] 1 _ _ rfl rfl]
      exact out_row V0 1 b ch h w

end Cert.ReferenceIdeal.RefValue

end
-- ==== Proof.Algebra.lean ====
/-
  The two arrangements of complex batch normalisation agree on finite data (see Spec.lean for the two arrangements).

  Every quantity on both sides is the coercion of a real number: the sums of finite data are finite, the sample count
  and the literals are real numbers, and the whitening matrix has real entries because the regularised centred
  covariance matrix is positive definite (Cauchy–Schwarz bounds its determinant below by ε² > 0).  The raw-moment
  covariance equals the centred one over the reals (Σ(a − μa)(b − μb) = Σab − N μa μb), and the two orders of the
  linear maps agree by distributivity over the reals.
-/
import proofs.«138593_j27676769255584_1_alg».proof.Proof.Spec
import Mathlib.Analysis.SpecialFunctions.Pow.Real
import Mathlib.Algebra.Order.Chebyshev
import Mathlib.Algebra.Order.BigOperators.Ring.Finset

noncomputable section

namespace Cert.BN

open Idealize.ShloMosaic

/-! ### The literals -/

/-- The literal N is 2¹⁷ = 131072. -/
theorem cN_eq : cN = ((131072 : ℝ) : EReal) := by
  simp [cN, Ideal.ofBits, Ideal.ieee, -EReal.coe_mul]; norm_num

/-- The literal 2. -/
theorem cTwo_eq : cTwo = ((2 : ℝ) : EReal) := by
  simp [cTwo, Ideal.ofBits, Ideal.ieee, -EReal.coe_mul]; norm_num

/-- The literal 1. -/
theorem cOne_eq : cOne = ((1 : ℝ) : EReal) := by
  simp [cOne, Ideal.ofBits, Ideal.ieee, -EReal.coe_mul]; norm_num

/-- The regulariser ε is a positive real number. -/
theorem cEps_eq : ∃ e : ℝ, 0 < e ∧ cEps = (e : EReal) := by
  simp [cEps, Ideal.ofBits, Ideal.ieee, -EReal.coe_mul]

/-! ### Sums of coercions -/

/-- A finite sum of coercions of reals is the coercion of the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

/-! ### Division by the sample count -/

/-- Dividing a real by the literal N is the real quotient by 131072. -/
theorem div_cN_coe (x : ℝ) : Ideal.div (x : EReal) cN = ((x / 131072 : ℝ) : EReal) := by
  rw [cN_eq, Ideal.div_coe (by norm_num), ← EReal.coe_mul]
  congr 1
  ring

theorem mean_coe (x : ℝ) : mean (x : EReal) = ((x / 131072 : ℝ) : EReal) := div_cN_coe x

/-! ### The whitening matrix on finite, positive-definite data -/

/-- The real s = √det. -/
def sDetR (Vrr Vii Vri : ℝ) : ℝ := Real.sqrt (Vrr * Vii - Vri * Vri)
/-- The real 1 / (s t). -/
def invSTR (Vrr Vii Vri : ℝ) : ℝ :=
  1 / (sDetR Vrr Vii Vri * Real.sqrt (Vrr + Vii + 2 * sDetR Vrr Vii Vri))

theorem sDet_coe {Vrr Vii Vri : ℝ} (hdet : 0 < Vrr * Vii - Vri * Vri) :
    sDet (Vrr : EReal) (Vii : EReal) (Vri : EReal) = ((sDetR Vrr Vii Vri : ℝ) : EReal) := by
  unfold sDet sDetR
  rw [← EReal.coe_mul, ← EReal.coe_mul, ← EReal.coe_sub, Ideal.sqrt_coe, if_neg (not_lt.2 hdet.le)]

theorem sDetR_pos {Vrr Vii Vri : ℝ} (hdet : 0 < Vrr * Vii - Vri * Vri) : 0 < sDetR Vrr Vii Vri :=
  Real.sqrt_pos.2 hdet

theorem invST_coe {Vrr Vii Vri : ℝ} (hrr : 0 < Vrr) (hii : 0 < Vii) (hdet : 0 < Vrr * Vii - Vri * Vri) :
    invST (Vrr : EReal) (Vii : EReal) (Vri : EReal) = ((invSTR Vrr Vii Vri : ℝ) : EReal) := by
  have hs := sDetR_pos hdet
  have htr : 0 < Vrr + Vii + 2 * sDetR Vrr Vii Vri := by positivity
  have ht : 0 < Real.sqrt (Vrr + Vii + 2 * sDetR Vrr Vii Vri) := Real.sqrt_pos.2 htr
  have hne : sDetR Vrr Vii Vri * Real.sqrt (Vrr + Vii + 2 * sDetR Vrr Vii Vri) ≠ 0 := (mul_pos hs ht).ne'
  unfold invST invSTR
  rw [sDet_coe hdet, cTwo_eq, cOne_eq, ← EReal.coe_add, ← EReal.coe_mul, ← EReal.coe_add, Ideal.sqrt_coe,
    if_neg (not_lt.2 htr.le), ← EReal.coe_mul, Ideal.div_coe hne, ← EReal.coe_mul, one_mul]

/-- On finite positive-definite data the folded and the unfolded order of the two linear maps agree: every entry
    of the whitening matrix is a real number, and the identity is distributivity over the reals. -/
theorem fold_eq {Vrr Vii Vri : ℝ} (hrr : 0 < Vrr) (hii : 0 < Vii) (hdet : 0 < Vrr * Vii - Vri * Vri)
    (wa wb bb dr di : ℝ) :
    coefR (Vrr : EReal) Vii Vri wa wb * (dr : EReal) + coefI (Vrr : EReal) Vii Vri wa wb * (di : EReal) + (bb : EReal)
      = (wa : EReal) * (Rrr (Vrr : EReal) Vii Vri * (dr : EReal) + Rri (Vrr : EReal) Vii Vri * (di : EReal))
        + (wb : EReal) * (Rri (Vrr : EReal) Vii Vri * (dr : EReal) + Rii (Vrr : EReal) Vii Vri * (di : EReal))
        + (bb : EReal) := by
  unfold coefR coefI Rrr Rii Rri
  rw [invST_coe hrr hii hdet, sDet_coe hdet]
  simp only [← EReal.coe_add, ← EReal.coe_mul, ← EReal.coe_neg]
  congr 1
  ring

/-! ### The covariance entries as real numbers -/

theorem varRaw_coe {e : ℝ} (hE : cEps = (e : EReal)) (Saa Sa : ℝ) :
    varRaw (Saa : EReal) (Sa : EReal) = ((Saa / 131072 - Sa / 131072 * (Sa / 131072) + e : ℝ) : EReal) := by
  unfold varRaw
  rw [mean_coe, div_cN_coe, hE, ← EReal.coe_mul, ← EReal.coe_sub, ← EReal.coe_add]

theorem covRaw_coe (Sab Sa Sb : ℝ) :
    covRaw (Sab : EReal) (Sa : EReal) (Sb : EReal)
      = ((Sab / 131072 - Sa / 131072 * (Sb / 131072) : ℝ) : EReal) := by
  unfold covRaw
  rw [mean_coe, mean_coe, div_cN_coe, ← EReal.coe_mul, ← EReal.coe_sub]

theorem varCentred_coe {e : ℝ} (hE : cEps = (e : EReal)) (D : ℝ) :
    Ideal.div (D : EReal) cN + cEps = ((D / 131072 + e : ℝ) : EReal) := by
  rw [div_cN_coe, hE, ← EReal.coe_add]

/-! ### Raw and centred second moments -/

/-- Σ(a − μa)(b − μb)/N = Σab/N − μa μb, for N = 131072 samples. -/
theorem centred_moment {ι : Type} [Fintype ι] (hcard : Fintype.card ι = 131072) (a b : ι → ℝ) :
    (∑ i, (a i - (∑ i, a i) / 131072) * (b i - (∑ i, b i) / 131072)) / 131072
      = (∑ i, a i * b i) / 131072 - (∑ i, a i) / 131072 * ((∑ i, b i) / 131072) := by
  have h : ∀ i, (a i - (∑ i, a i) / 131072) * (b i - (∑ i, b i) / 131072)
      = a i * b i - (∑ i, a i) / 131072 * b i - (∑ i, b i) / 131072 * a i
        + (∑ i, a i) / 131072 * ((∑ i, b i) / 131072) := fun i => by ring
  rw [Finset.sum_congr rfl fun i _ => h i, Finset.sum_add_distrib, Finset.sum_sub_distrib, Finset.sum_sub_distrib,
    ← Finset.mul_sum, ← Finset.mul_sum, Finset.sum_const, Finset.card_univ, hcard, nsmul_eq_mul]
  push_cast
  ring

/-- The regularised centred covariance matrix is positive definite: by the Cauchy–Schwarz inequality its
    determinant is at least ε². -/
theorem det_pos {ι : Type} [Fintype ι] (u v : ι → ℝ) {e : ℝ} (he : 0 < e) :
    0 < ((∑ i, u i * u i) / 131072 + e) * ((∑ i, v i * v i) / 131072 + e)
        - (∑ i, u i * v i) / 131072 * ((∑ i, u i * v i) / 131072) := by
  have hCS := Finset.sum_mul_sq_le_sq_mul_sq Finset.univ u v
  have hA : 0 ≤ ∑ i, u i * u i := Finset.sum_nonneg fun i _ => mul_self_nonneg _
  have hB : 0 ≤ ∑ i, v i * v i := Finset.sum_nonneg fun i _ => mul_self_nonneg _
  simp only [sq] at hCS
  nlinarith [mul_nonneg he.le hA, mul_nonneg he.le hB, mul_pos he he]

theorem var_pos {ι : Type} [Fintype ι] (u : ι → ℝ) {e : ℝ} (he : 0 < e) :
    0 < (∑ i, u i * u i) / 131072 + e :=
  add_pos_of_nonneg_of_pos (div_nonneg (Finset.sum_nonneg fun i _ => mul_self_nonneg _) (by norm_num)) he

/-- For one channel of N = 131072 finite samples (a i, b i), a finite weight row and bias, the output entry computed
    from raw moments with the affine row folded into the whitening matrix equals the entry computed from centred moments
    with the whitening applied first. -/
theorem outFolded_eq_outCentred {ι : Type} [Fintype ι] (hcard : Fintype.card ι = 131072)
    (a b : ι → ℝ) (wa wb bb : ℝ) (j : ι) :
    outFolded (∑ i, (a i : EReal)) (∑ i, (b i : EReal)) (∑ i, (a i : EReal) * (a i : EReal))
        (∑ i, (b i : EReal) * (b i : EReal)) (∑ i, (a i : EReal) * (b i : EReal)) wa wb bb (a j) (b j)
      = outCentred (∑ i, (a i : EReal)) (∑ i, (b i : EReal))
          (∑ i, ((a i : EReal) - mean (∑ i, (a i : EReal))) * ((a i : EReal) - mean (∑ i, (a i : EReal))))
          (∑ i, ((b i : EReal) - mean (∑ i, (b i : EReal))) * ((b i : EReal) - mean (∑ i, (b i : EReal))))
          (∑ i, ((a i : EReal) - mean (∑ i, (a i : EReal))) * ((b i : EReal) - mean (∑ i, (b i : EReal))))
          wa wb bb (a j) (b j) := by
  obtain ⟨e, he, hE⟩ := cEps_eq
  have e1 : ∑ i, (a i : EReal) = ((∑ i, a i : ℝ) : EReal) := coe_sum _ _
  have e2 : ∑ i, (b i : EReal) = ((∑ i, b i : ℝ) : EReal) := coe_sum _ _
  have e3 : ∑ i, (a i : EReal) * (a i : EReal) = ((∑ i, a i * a i : ℝ) : EReal) := by
    rw [← coe_sum]; simp only [EReal.coe_mul]
  have e4 : ∑ i, (b i : EReal) * (b i : EReal) = ((∑ i, b i * b i : ℝ) : EReal) := by
    rw [← coe_sum]; simp only [EReal.coe_mul]
  have e5 : ∑ i, (a i : EReal) * (b i : EReal) = ((∑ i, a i * b i : ℝ) : EReal) := by
    rw [← coe_sum]; simp only [EReal.coe_mul]
  rw [e1, e2, e3, e4, e5, mean_coe (∑ i, a i), mean_coe (∑ i, b i)]
  have d1 : ∑ i, ((a i : EReal) - (((∑ i, a i) / 131072 : ℝ) : EReal)) * ((a i : EReal) - (((∑ i, a i) / 131072 : ℝ) : EReal))
      = ((∑ i, (a i - (∑ i, a i) / 131072) * (a i - (∑ i, a i) / 131072) : ℝ) : EReal) := by
    rw [← coe_sum]; simp only [EReal.coe_mul, EReal.coe_sub]
  have d2 : ∑ i, ((b i : EReal) - (((∑ i, b i) / 131072 : ℝ) : EReal)) * ((b i : EReal) - (((∑ i, b i) / 131072 : ℝ) : EReal))
      = ((∑ i, (b i - (∑ i, b i) / 131072) * (b i - (∑ i, b i) / 131072) : ℝ) : EReal) := by
    rw [← coe_sum]; simp only [EReal.coe_mul, EReal.coe_sub]
  have d3 : ∑ i, ((a i : EReal) - (((∑ i, a i) / 131072 : ℝ) : EReal)) * ((b i : EReal) - (((∑ i, b i) / 131072 : ℝ) : EReal))
      = ((∑ i, (a i - (∑ i, a i) / 131072) * (b i - (∑ i, b i) / 131072) : ℝ) : EReal) := by
    rw [← coe_sum]; simp only [EReal.coe_mul, EReal.coe_sub]
  rw [d1, d2, d3]
  unfold outFolded outCentred
  rw [varRaw_coe hE, varRaw_coe hE, covRaw_coe, varCentred_coe hE, varCentred_coe hE, div_cN_coe,
    mean_coe (∑ i, a i), mean_coe (∑ i, b i), ← EReal.coe_sub, ← EReal.coe_sub,
    ← centred_moment hcard a a, ← centred_moment hcard b b, ← centred_moment hcard a b]
  exact fold_eq (var_pos (fun i => a i - (∑ i, a i) / 131072) he) (var_pos (fun i => b i - (∑ i, b i) / 131072) he)
    (det_pos (fun i => a i - (∑ i, a i) / 131072) (fun i => b i - (∑ i, b i) / 131072) he) wa wb bb _ _

end Cert.BN

end
-- ==== Proof.Bridge.lean ====
/-
  On arrays of finite numbers the two arrangements of complex batch normalisation give the same result.
-/
import proofs.«138593_j27676769255584_1_alg».proof.Proof.SpecArr
import proofs.«138593_j27676769255584_1_alg».proof.Proof.Algebra

noncomputable section

namespace Cert.BN

open Idealize.ShloMosaic Idealize.ShloMosaic.ValueIdx

/-- A channel's sum is the sum over the 32 × 64 × 64 samples of the channel. -/
theorem chanSum_eq (f : SX.Idx → EReal) (ch : Fin 256) :
    chanSum f ch = ∑ t : Fin 32 × Fin 64 × Fin 64, f (ix4 t.1 ch t.2.1 t.2.2) := by
  unfold chanSum
  rw [Fintype.sum_prod_type]
  refine Finset.sum_congr rfl fun b _ => ?_
  rw [Fintype.sum_prod_type]

/-- The centred array at a sample of channel ch subtracts that channel's mean. -/
theorem centred_ix4 (X : SX.Idx → EReal) (b : Fin 32) (ch : Fin 256) (h w : Fin 64) :
    centred X (ix4 b ch h w) = X (ix4 b ch h w) - mean (chanSum X ch) := rfl

/-- One entry, at explicit coordinates: the per-channel identity over the channel's 131072 samples. -/
theorem entry_eq (xr yr : SX.Idx → ℝ) (wr : SW.Idx → ℝ) (br : SB.Idx → ℝ)
    (k : Fin 2) (b : Fin 32) (ch : Fin 256) (h w : Fin 64) :
    outFolded (chanSum (fun j => (xr j : EReal)) ch) (chanSum (fun j => (yr j : EReal)) ch)
        (chanSum (fun j => (xr j : EReal) * (xr j : EReal)) ch) (chanSum (fun j => (yr j : EReal) * (yr j : EReal)) ch)
        (chanSum (fun j => (xr j : EReal) * (yr j : EReal)) ch)
        (wr (ix3 k (0 : Fin 2) ch)) (wr (ix3 k (1 : Fin 2) ch)) (br (ix2 k ch))
        (xr (ix4 b ch h w)) (yr (ix4 b ch h w))
      = outCentred (chanSum (fun j => (xr j : EReal)) ch) (chanSum (fun j => (yr j : EReal)) ch)
        (chanSum (fun j => centred (fun j => (xr j : EReal)) j * centred (fun j => (xr j : EReal)) j) ch)
        (chanSum (fun j => centred (fun j => (yr j : EReal)) j * centred (fun j => (yr j : EReal)) j) ch)
        (chanSum (fun j => centred (fun j => (xr j : EReal)) j * centred (fun j => (yr j : EReal)) j) ch)
        (wr (ix3 k (0 : Fin 2) ch)) (wr (ix3 k (1 : Fin 2) ch)) (br (ix2 k ch))
        (xr (ix4 b ch h w)) (yr (ix4 b ch h w)) := by
  have key := outFolded_eq_outCentred (ι := Fin 32 × Fin 64 × Fin 64) (by simp)
    (fun t => xr (ix4 t.1 ch t.2.1 t.2.2)) (fun t => yr (ix4 t.1 ch t.2.1 t.2.2))
    (wr (ix3 k (0 : Fin 2) ch)) (wr (ix3 k (1 : Fin 2) ch)) (br (ix2 k ch)) (b, h, w)
  simp only [chanSum_eq, centred_ix4]
  exact key

/-- If every entry of the four arrays is a real number, the folded and the centred results agree entry by entry:
    per channel this is `outFolded_eq_outCentred` over the 32 · 64 · 64 = 131072 samples of the channel. -/
theorem foldedOut_eq_centredOut (X Y : SX.Idx → EReal) (W : SW.Idx → EReal) (B : SB.Idx → EReal)
    (hX : ∀ i, ∃ r : ℝ, X i = (r : EReal)) (hY : ∀ i, ∃ r : ℝ, Y i = (r : EReal))
    (hW : ∀ i, ∃ r : ℝ, W i = (r : EReal)) (hB : ∀ i, ∃ r : ℝ, B i = (r : EReal)) :
    foldedOut X Y W B = centredOut X Y W B := by
  choose xr hxr using hX
  choose yr hyr using hY
  choose wr hwr using hW
  choose br hbr using hB
  obtain rfl : X = fun j => (xr j : EReal) := funext hxr
  obtain rfl : Y = fun j => (yr j : EReal) := funext hyr
  obtain rfl : W = fun j => (wr j : EReal) := funext hwr
  obtain rfl : B = fun j => (br j : EReal) := funext hbr
  funext i
  exact entry_eq xr yr wr br (i 0) (i 1) (i 2) (i 3) (i 4)

end Cert.BN

end
-- ==== Proof.Finite.lean ====
/-
  The precondition says that every entry of the four argument arrays has absolute value below +∞; on the extended
  reals that makes every entry a real number.
-/
import proofs.«138593_j27676769255584_1_alg».proof.Pre_finite_inputs
import proofs.«138593_j27676769255584_1_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The rank-0 shape has one index. -/
instance : Subsingleton S_.Idx := ⟨fun a b => funext fun d => d.elim0⟩

/-- The bound the predicate compares against is +∞. -/
theorem inf_eq : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- If the precondition's predicate, read on the extended reals, is all ones on four arrays, every entry of each of
    them is a real number. -/
theorem real_of_pre (x0 x1 : FVec Ideal S32x256x64x64 .f32) (x2 : FVec Ideal S2x2x256 .f32) (x3 : FVec Ideal S2x256 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt (x0 i) (Host.reduce_andi_all _ _ _ _ _ e0 i),
    fun i => real_of_abs_lt (x1 i) (Host.reduce_andi_all _ _ _ _ _ e1 i),
    fun i => real_of_abs_lt (x2 i) (Host.reduce_andi_all _ _ _ _ _ e2 i),
    fun i => real_of_abs_lt (x3 i) (Host.reduce_andi_all _ _ _ _ _ e3 i)⟩

end Cert.Finite

end
-- ==== Proof.lean ====
/-
  Complex batch normalisation in training mode, over f32[32, 256, 64, 64] real and imaginary parts: a two-pass kernel
  against a plain array program, equal over the extended reals on finite inputs.

  The kernel's first pass sums, per channel, a, b, a², b² and a·b over the 131072 samples; host arithmetic forms the
  means, the covariance entries Vrr = Σa²/N − μa² + ε, Vii, Vri = Σab/N − μa μb, the closed-form inverse square root
  R of the 2 × 2 covariance matrix, and folds the 2 × 2 affine weight into it; the second pass applies the folded
  coefficients to the centred samples.  The reference centres first, takes Vrr = Σ(a − μa)²/N + ε and so on, whitens the
  centred samples with R and then applies the weight.  The two agree because Σ(a − μ)² = Σa² − N μ² (N is exactly the
  number of samples), and because, the determinant being at least ε² > 0 by the Cauchy–Schwarz inequality, every entry of
  R is a finite number, so that the product of the weight row with R may be distributed over the centred sample.

  Spec.lean and SpecArr.lean state the two arrangements, Algebra.lean and Bridge.lean prove them equal on finite data,
  Finite.lean reads finiteness out of the precondition, KStats / KHost / KTransform / KValue read the kernel program's
  result as the folded arrangement and RefValue the reference's as the centred one.
-/
import proofs.«138593_j27676769255584_1_alg».proof.Defs
import proofs.«138593_j27676769255584_1_alg».proof.Proof.Gen.Kernel
import proofs.«138593_j27676769255584_1_alg».proof.Proof.Gen.Kernel.Skeleton
import proofs.«138593_j27676769255584_1_alg».proof.Proof.Gen.Kernel.Launch
import proofs.«138593_j27676769255584_1_alg».proof.Proof.Gen.Kernel.Points
import proofs.«138593_j27676769255584_1_alg».proof.Proof.Gen.Kernel.Frame
import proofs.«138593_j27676769255584_1_alg».proof.Proof.Gen.KernelIdeal
import proofs.«138593_j27676769255584_1_alg».proof.Proof.Gen.KernelIdeal.Skeleton
import proofs.«138593_j27676769255584_1_alg».proof.Proof.Gen.KernelIdeal.Launch
import proofs.«138593_j27676769255584_1_alg».proof.Proof.Gen.KernelIdeal.Points
import proofs.«138593_j27676769255584_1_alg».proof.Proof.Gen.KernelIdeal.Frame
import proofs.«138593_j27676769255584_1_alg».proof.Proof.Gen.ReferenceIdeal
import proofs.«138593_j27676769255584_1_alg».proof.Proof.Gen.ReferenceIdeal.Run
import proofs.«138593_j27676769255584_1_alg».proof.Proof.Gen.Pre_finite_inputs
import proofs.«138593_j27676769255584_1_alg».proof.Proof.KValue
import proofs.«138593_j27676769255584_1_alg».proof.Proof.RefValue
import proofs.«138593_j27676769255584_1_alg».proof.Proof.Bridge
import proofs.«138593_j27676769255584_1_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On finite inputs the kernel's folded arrangement and the reference's centred arrangement are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KValue.run_value m ρ, ?_⟩
  refine (θ_run Cert.ReferenceIdeal.defs _ _).mono (fun _ h c => ⟨(h c).1.trans ?_, (h c).2⟩)
    (Cert.ReferenceIdeal.RefValue.run_value m' ρ')
  rw [(hagree c).1, (hagree c).2.1, (hagree c).2.2.1, (hagree c).2.2.2]
  obtain ⟨hX, hY, hW, hB⟩ := Cert.Finite.real_of_pre _ _ _ _ (hpre c)
  exact (Cert.BN.foldedOut_eq_centredOut _ _ _ _ hX hY hW hB).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
